-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x256 : Shape := ⟨2, ![128, 256]⟩
abbrev S256 : Shape := ⟨1, ![256]⟩
abbrev S256x64 : Shape := ⟨2, ![256, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_

variable [Facts]

def fn_part2 {F : FTy → Type} [FloatOps F] (main_arg9 : FVec F S256x64 .f32) (main_arg10 : FVec F S64 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S128x256 .f32) (main_arg8 : FVec F S256 .f32) (main_arg9 : FVec F S256x64 .f32) (main_arg10 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x1600000 32) (main_arg2 : IVec S2x500000 32) (main_arg3 : FVec F S128x128 .f32) (main_arg4 : FVec F S128 .f32) (main_arg5 : FVec F S128x64 .f32) (main_arg6 : FVec F S64 .f32) (main_arg7 : FVec F S128x256 .f32) (main_arg8 : FVec F S256 .f32) (main_arg9 : FVec F S256x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x256 : Shape := ⟨2, ![128, 256]⟩
abbrev S256 : Shape := ⟨1, ![256]⟩
abbrev S256x64 : Shape := ⟨2, ![256, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S2000x128 : Shape := ⟨2, ![2000, 128]⟩
abbrev S2000x64 : Shape := ⟨2, ![2000, 64]⟩
abbrev S2000x256 : Shape := ⟨2, ![2000, 256]⟩
abbrev S1x256 : Shape := ⟨2, ![1, 256]⟩
abbrev S1x64 : Shape := ⟨2, ![1, 64]⟩
abbrev S1650000x128 : Shape := ⟨2, ![1650000, 128]⟩
abbrev S1x128 : Shape := ⟨2, ![1, 128]⟩
abbrev S1650000x64 : Shape := ⟨2, ![1650000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S503808x64 : Shape := ⟨2, ![503808, 64]⟩
abbrev S503808 : Shape := ⟨1, ![503808]⟩
abbrev S4096x64 : Shape := ⟨2, ![4096, 64]⟩
abbrev S4096 : Shape := ⟨1, ![4096]⟩

abbrev nBuf : Space → Nat
  | .hbm => 117
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x500000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S50000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S_, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S50000x128, .f32⟩
  | .hbm, ⟨52, _⟩ => ⟨S50000x64, .f32⟩
  | .hbm, ⟨53, _⟩ => ⟨S1650000x1, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000x128, .f32⟩
  | .hbm, ⟨63, _⟩ => ⟨S1650000x128, .f32⟩
  | .hbm, ⟨64, _⟩ => ⟨S1650000x128, .f32⟩
  | .hbm, ⟨65, _⟩ => ⟨S_, .f32⟩
  | .hbm, ⟨66, _⟩ => ⟨S50000x128, .f32⟩
  | .hbm, ⟨67, _⟩ => ⟨S1650000x1, .i32⟩
  | .hbm, ⟨68, _⟩ => ⟨S50000x128, .f32⟩
  | .hbm, ⟨69, _⟩ => ⟨S50000x64, .f32⟩
  | .hbm, ⟨70, _⟩ => ⟨S1650000x1, .f32⟩
  | .hbm, ⟨71, _⟩ => ⟨S_, .i32⟩
  | .hbm, ⟨72, _⟩ => ⟨S1650000, .i32⟩
  | .hbm, ⟨73, _⟩ => ⟨S1650000, .i1⟩
  | .hbm, ⟨74, _⟩ => ⟨S_, .i32⟩
  | .hbm, ⟨75, _⟩ => ⟨S1650000, .i32⟩
  | .hbm, ⟨76, _⟩ => ⟨S1650000, .i32⟩
  | .hbm, ⟨77, _⟩ => ⟨S1650000, .i32⟩
  | .hbm, ⟨78, _⟩ => ⟨S1650000x1, .i32⟩
  | .hbm, ⟨79, _⟩ => ⟨S1650000x64, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S50000x64, .f32⟩
  | .hbm, ⟨87, _⟩ => ⟨S1x500000, .i32⟩
  | .hbm, ⟨88, _⟩ => ⟨S500000, .i32⟩
  | .hbm, ⟨89, _⟩ => ⟨S_, .i32⟩
  | .hbm, ⟨90, _⟩ => ⟨S500000, .i32⟩
  | .hbm, ⟨91, _⟩ => ⟨S500000, .i1⟩
  | .hbm, ⟨92, _⟩ => ⟨S_, .i32⟩
  | .hbm, ⟨93, _⟩ => ⟨S500000, .i32⟩
  | .hbm, ⟨94, _⟩ => ⟨S500000, .i32⟩
  | .hbm, ⟨95, _⟩ => ⟨S500000, .i32⟩
  | .hbm, ⟨96, _⟩ => ⟨S500000x1, .i32⟩
  | .hbm, ⟨97, _⟩ => ⟨S500000x64, .f32⟩
  | .hbm, ⟨98, _⟩ => ⟨S1x500000, .i32⟩
  | .hbm, ⟨99, _⟩ => ⟨S500000, .i32⟩
  | .hbm, ⟨100, _⟩ => ⟨S_, .i32⟩
  | .hbm, ⟨101, _⟩ => ⟨S500000, .i32⟩
  | .hbm, ⟨102, _⟩ => ⟨S500000, .i1⟩
  | .hbm, ⟨103, _⟩ => ⟨S_, .i32⟩
  | .hbm, ⟨104, _⟩ => ⟨S500000, .i32⟩
  | .hbm, ⟨105, _⟩ => ⟨S500000, .i32⟩
  | .hbm, ⟨106, _⟩ => ⟨S500000, .i32⟩
  | .hbm, ⟨107, _⟩ => ⟨S500000x1, .i32⟩
  | .hbm, ⟨108, _⟩ => ⟨S500000x64, .f32⟩
  | .hbm, ⟨109, _⟩ => ⟨S_, .i32⟩
  | .hbm, ⟨110, _⟩ => ⟨S_, .f32⟩
  | .hbm, ⟨111, _⟩ => ⟨S503808x64, .f32⟩
  | .hbm, ⟨112, _⟩ => ⟨S_, .i32⟩
  | .hbm, ⟨113, _⟩ => ⟨S_, .f32⟩
  | .hbm, ⟨114, _⟩ => ⟨S503808x64, .f32⟩
  | .hbm, ⟨115, _⟩ => ⟨S503808, .f32⟩
  | .hbm, ⟨116, _⟩ => ⟨S500000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x256, .f32⟩
  | .local _ .vmem, ⟨4, _⟩ => ⟨S256, .f32⟩
  | .local _ .vmem, ⟨5, _⟩ => ⟨S256x64, .f32⟩
  | .local _ .vmem, ⟨6, _⟩ => ⟨S64, .f32⟩
  | .local _ .vmem, ⟨7, _⟩ => ⟨S2000x128, .f32⟩
  | .local _ .vmem, ⟨8, _⟩ => ⟨S2000x128, .f32⟩
  | .local _ .vmem, ⟨9, _⟩ => ⟨S2000x64, .f32⟩
  | .local _ .vmem, ⟨10, _⟩ => ⟨S2000x64, .f32⟩
  | .local _ .vmem, ⟨11, _⟩ => ⟨S2000x128, .f32⟩
  | .local _ .vmem, ⟨12, _⟩ => ⟨S2000x128, .f32⟩
  | .local _ .vmem, ⟨13, _⟩ => ⟨S128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S4096x64, .f32⟩
  | .local _ .vmem, ⟨28, _⟩ => ⟨S4096, .f32⟩
  | .local _ .vmem, ⟨29, _⟩ => ⟨S4096, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30_0 : Ref sig .tc := ⟨.hbm, 51, rfl⟩
abbrev main_v30_1 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_call1_v0 : Ref sig .tc := ⟨.hbm, 110, rfl⟩
abbrev main_v77 : Ref sig .tc := ⟨.hbm, 111, rfl⟩
abbrev main_c_17 : Ref sig .tc := ⟨.hbm, 112, rfl⟩
abbrev main_call2_v0 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![123], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S2000x64_S2000x64 : S2000x64.ShapeCasts S2000x64
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  pads_S500000x64_S503808x64_038080_000 : S500000x64.Pads (![0, 0] : Fin 2 → Nat) ![3808, 0] ![0, 0] S503808x64
  h_S_ : 0 < S_.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  slices_S503808_S500000_0 : S503808.Slices ![0] S500000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x64_S2000x64_1_0_0_1_n_n_wf : DotDims.WF S2000x128 S128x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  gather_S50000x64_S500000x1_S500000x64_1_0_n_n_0_1_164_wf : GatherDims.WF S50000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .f32 = 32 ∨ (Rect.block (s := S50000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S503808x64.size a
  hwx3_0 : ∀ i : grid3.Coords, EltTy.bits .f32 = 32 ∨ (Rect.block (s := S503808x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S503808x64.size a
  hwx3_1 : ∀ i : grid3.Coords, EltTy.bits .f32 = 32 ∨ (Rect.block (s := S503808x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096.size a ≤ S503808.size a
  hwx3_2 : ∀ i : grid3.Coords, EltTy.bits .f32 = 32 ∨ (Rect.block (s := S503808) S4096.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30_1) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S4096.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x256 : Shape := ⟨2, ![128, 256]⟩
abbrev S256 : Shape := ⟨1, ![256]⟩
abbrev S256x64 : Shape := ⟨2, ![256, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x256 : Shape := ⟨2, ![50000, 256]⟩
abbrev S1x256 : Shape := ⟨2, ![1, 256]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x1600000, .i32⟩
  | 2 => ⟨S2x500000, .i32⟩
  | 3 => ⟨S128x128, .f32⟩
  | 4 => ⟨S128, .f32⟩
  | 5 => ⟨S128x64, .f32⟩
  | 6 => ⟨S64, .f32⟩
  | 7 => ⟨S128x256, .f32⟩
  | 8 => ⟨S256, .f32⟩
  | 9 => ⟨S256x64, .f32⟩
  | 10 => ⟨S64, .f32⟩
  | 11 => ⟨S50000, .i32⟩
  | 12 => ⟨S1x1600000, .i32⟩
  | 13 => ⟨S1600000, .i32⟩
  | 14 => ⟨S1650000, .i32⟩
  | 15 => ⟨S1x1600000, .i32⟩
  | 16 => ⟨S1600000, .i32⟩
  | 17 => ⟨S1650000, .i32⟩
  | 18 => ⟨S_, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S50000x128, .f32⟩
  | 52 => ⟨S1650000x1, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000x128, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x64, .f32⟩
  | 75 => ⟨S1650000x1, .f32⟩
  | 76 => ⟨S_, .i32⟩
  | 77 => ⟨S1650000, .i32⟩
  | 78 => ⟨S1650000, .i1⟩
  | 79 => ⟨S_, .i32⟩
  | 80 => ⟨S1650000, .i32⟩
  | 81 => ⟨S1650000, .i32⟩
  | 82 => ⟨S1650000, .i32⟩
  | 83 => ⟨S1650000x1, .i32⟩
  | 84 => ⟨S1650000x64, .f32⟩
  | 85 => ⟨S1650000x64, .f32⟩
  | 86 => ⟨S1650000x64, .f32⟩
  | 87 => ⟨S_, .f32⟩
  | 88 => ⟨S50000x64, .f32⟩
  | 89 => ⟨S1650000x1, .i32⟩
  | 90 => ⟨S50000x64, .f32⟩
  | 91 => ⟨S1x64, .f32⟩
  | 92 => ⟨S50000x64, .f32⟩
  | 93 => ⟨S50000x64, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S1x500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x64, .f32⟩
  | 123 => ⟨S1x500000, .i32⟩
  | 124 => ⟨S500000, .i32⟩
  | 125 => ⟨S_, .i32⟩
  | 126 => ⟨S500000, .i32⟩
  | 127 => ⟨S500000, .i1⟩
  | _ => ⟨S50000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x64, .f32⟩
  | 6 => ⟨S500000x64, .f32⟩
  | 7 => ⟨S_, .f32⟩
  | 8 => ⟨S500000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_14 : Ref sig .tc := ⟨.hbm, 114, rfl⟩
abbrev main_v81 : Ref sig .tc := ⟨.hbm, 115, rfl⟩
abbrev main_v82 : Ref sig .tc := ⟨.hbm, 116, rfl⟩
abbrev main_c_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_c_17 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_18 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []
  gather_S50000x64_S500000x1_S500000x64_1_0_n_n_0_1_164_wf : GatherDims.WF S50000x64 S500000x1 S500000x64 [1] [0] [] [0] [] 1 ![1, 64]

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.LibRows.lean ====
/-
  A row vector spread over the rows of a matrix, and a scalar spread over an array, read at one entry.

  A bias vector b of length n is added to every row of an m × n array. On a kernel it is first given a leading unit
  axis (a cast from [n] to [1, n]) and then repeated down the rows (a broadcast from [1, n] to [m, n]); on the host both
  steps are `broadcast_in_dim`, first placing the vector on axis 1 of a [1, n] array, then that array on axes (0, 1)
  of the [m, n] one. Either way the entry at (p, c) is b(c): the row coordinate p is dropped and the column kept.
  A scalar (an array with no axis) spread over any shape reads, at every index, the scalar itself.
-/
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

variable {α : Type}

/-- A vector given a leading unit axis and repeated down `m` rows reads, at (p, c), the vector at c. -/
theorem row_spread_cast {m n : ℕ} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (c : Fin n) :
    broadcastTo ⟨2, ![m, n]⟩ (shapeCast ⟨2, ![1, n]⟩ b h1) h2 (ix2 p c) = b (ix1 c) :=
  (broadcastTo_1b_ab_apply _ h2 p c).trans (shapeCast_a_1a_apply b h1 0 c)

/-- A vector placed on axis 1 of a one-row array, and that array on axes (0, 1) of an `m`-row one, reads, at (p, c),
    the vector at c. -/
theorem row_spread_inDim {m n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (p : Fin m) (c : Fin n) :
    broadcastInDim ⟨2, ![m, n]⟩ ![0, 1] h2 (broadcastInDim ⟨2, ![1, n]⟩ ![1] h1 b) (ix2 p c) = b (ix1 c) := by
  refine (broadcastInDim_apply ![0, 1] h2 _ (ix2 p c) (ix2 (0 : Fin 1) c) fun a => ?_).trans
    (broadcastInDim_apply ![1] h1 b (ix2 (0 : Fin 1) c) (ix1 c) fun a => ?_)
  · match a with
    | ⟨0, _⟩ => rfl
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- A scalar spread over a shape reads, at every index, the scalar. -/
theorem splat_inDim {s : Shape} (z : (⟨0, ![]⟩ : Shape).Idx → α)
    (h : (⟨0, ![]⟩ : Shape).BroadcastsInDim s (![] : Fin 0 → Fin s.rank)) (i : s.Idx) :
    broadcastInDim s ![] h z i = z ix0 :=
  broadcastInDim_apply ![] h z i ix0 fun a => a.elim0

end Cert.LibRows

end
-- ==== Proof.NodeTransform.lean ====
/-
  The first pallas_call: the per-node linear maps, read as whole arrays.

  Row-tiled over the 50 000 nodes in 25 blocks of 2000, the call stores for every node the product of its feature
  row with the first GCN weight matrix W1 (first output), and the fully connected branch
  relu(x · Wf1 + bf1) · Wf2 + bf2 (second output). At the ideal values the change of float format in front of each
  product is the identity and a product accumulated from zero is the plain sum of products, so block t of each output
  is block t of the reference's whole-array expression; the blocks tile the arrays, hence after the region each output
  array IS that expression of the arrays the region found. No law of the extended reals beyond renaming the index of a
  sum is used.
-/
import proofs.«127649_j65180423684766_1_alg».proof.Proof.Gen.KernelIdeal.Frame
import proofs.«127649_j65180423684766_1_alg».proof.Proof.RefReadP
import proofs.«127649_j65180423684766_1_alg».proof.Proof.LibDotPlain
import proofs.«127649_j65180423684766_1_alg».proof.Proof.LibRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeTransform

open Cert.KernelIdeal Cert.KernelIdeal.Gen Idealize.ShloMosaic Idealize.ShloMosaic.TcCoe Idealize.ShloMosaic.ValueIdx Idealize.SL.Sem
open Idealize.ShloMosaic.Pipeline (Dat)
open Cert.ReferenceIdeal.ReadP

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

open Cert.LibRows

/-! ## The printed index maps, decided once over the 25 grid points

The node-feature window and the two output windows step down the 50 000 rows 2000 at a time, point `t` taking rows
`2000 t … 2000 t + 1999`; every weight and bias window stays at its one block. -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The first layer's transform: node features times the first weight matrix -/

/-- The body's first stored value at entry (p, q) of its block: the sum over k of x(p, k) · W1(k, q); the change of
    float format before the product is the identity on the extended reals and the accumulator starts at zero. -/
theorem pay_h1 (xb : Vec Ideal S2000x128 .f32) (w : Vec Ideal S128x128 .f32) (p : Fin 2000) (q : Fin 128) :
    k0_pay2 xb w (ix2 p q) = ∑ k : Fin 128, xb (ix2 p k) * w (ix2 k q) := by
  unfold k0_pay2 k0_pay1
  exact Cert.LibDotPlain.matmul_zero_plain 2000 128 128 none _ _ p q

/-- The reference's product of the whole feature array with W1 at entry (r, q): the same sum over k. -/
theorem ref_h1 (X : (⟨Cert.ReferenceIdeal.S50000x128, .f32⟩ : BufTy).Contents (Elt Ideal)) (W : (⟨Cert.ReferenceIdeal.S128x128, .f32⟩ : BufTy).Contents (Elt Ideal)) (r : Fin 50000) (q : Fin 128) :
    val_main_v30 X W (ix2 r q) = ∑ k : Fin 128, X (ix2 r k) * W (ix2 k q) := by
  unfold val_main_v30
  exact Cert.LibDotPlain.dotGeneral_plain 50000 128 128 none _ X W r q

/-- What grid point `t` writes back through the first output window is block `t` of the reference's product: row
    p of the block is row 2000 t + p of the array, whose feature row the point's input block holds, and W1 is read
    whole. -/
theorem flushed_h1 (c : Dev nD) (t : Fin cfg0.N) :
    (dat0 V c).flushed 6 t = ((cfg0.win 6).blk t).view.read (Elt Ideal) (val_main_v30 (V c main_arg0) (V c main_arg3)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x128) hz2]
  funext j
  obtain ⟨p, q, rfl⟩ : ∃ (p : Fin 2000) (q : Fin 128), j = ix2 p q := ⟨j 0, j 1, eq_ix2 j⟩
  obtain ⟨e00, e01, e10, e11, -, -, -, -, -, -, e60, e61, -, -⟩ := idx_facts t
  have ht : t.val < 25 := t.isLt
  have hr : win0_6.index t (0 : Fin 2) * 2000 + p.val < 50000 := by have := p.isLt; omega
  have hemb6 : ((cfg0.win 6).blk t).view.emb (ix2 p q) = ix2 (⟨win0_6.index t (0 : Fin 2) * 2000 + p.val, hr⟩ : Fin 50000) q := by
    funext a; apply Fin.ext
    match a with
    | ⟨0, _⟩ => show win0_6.index t (0 : Fin 2) * 2000 + 1 * p.val = win0_6.index t (0 : Fin 2) * 2000 + p.val; omega
    | ⟨1, _⟩ => show win0_6.index t (1 : Fin 2) * 128 + 1 * q.val = q.val; omega
  show k0_pay2 (iblk0 V c 0 t) (iblk0 V c 1 t) (ix2 p q) = val_main_v30 (V c main_arg0) (V c main_arg3) (((cfg0.win 6).blk t).view.emb (ix2 p q))
  rw [hemb6]
  refine (pay_h1 (iblk0 V c 0 t) (iblk0 V c 1 t) p q).trans ((Finset.sum_congr rfl fun k _ => ?_).trans (ref_h1 (V c main_arg0) (V c main_arg3) _ q).symm)
  have h0 : iblk0 V c 0 t (ix2 p k) = V c main_arg0 (ix2 (⟨win0_6.index t (0 : Fin 2) * 2000 + p.val, hr⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_6.index t (0 : Fin 2) * 2000 + p.val; omega
    | ⟨1, _⟩ => show win0_0.index t (1 : Fin 2) * 128 + 1 * k.val = k.val; omega
  have h1 : iblk0 V c 1 t (ix2 k q) = V c main_arg3 (ix2 k q) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the array lies in point `t`'s block of the first output iff each coordinate lies in the block's range. -/
theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v30_0).slice (win0_6.rect t)).set ↔ _
  rw [View.set_slice_whole, Rect.mem_set_unit]
  exact Iff.rfl

/-- The 25 blocks of 2000 rows fill the 50 000 rows: row r is in the block of point r / 2000. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 2000, by show (i 0).val / 2000 < 25; omega⟩, flush0_6 _, ?_⟩
  rw [mem_blk6]
  obtain ⟨-, -, -, -, -, -, -, -, -, -, e60, e61, -, -⟩ := idx_facts ⟨(i 0).val / 2000, by show (i 0).val / 2000 < 25; omega⟩
  intro a
  match a with
  | ⟨0, _⟩ => show win0_6.index _ (0 : Fin 2) * 2000 ≤ (i 0).val ∧ (i 0).val < win0_6.index _ (0 : Fin 2) * 2000 + 2000; rw [e60]; show (i 0).val / 2000 * 2000 ≤ (i 0).val ∧ (i 0).val < (i 0).val / 2000 * 2000 + 2000; omega
  | ⟨1, _⟩ => show win0_6.index _ (1 : Fin 2) * 128 ≤ (i 1).val ∧ (i 1).val < win0_6.index _ (1 : Fin 2) * 128 + 128; rw [e61]; omega

/-- After the first region the array of its first output holds the product of the node features with the first
    layer's weights, entry by entry, as the region found them. -/
theorem h1_array (c : Dev nD) : (dat0 V c).arrAt 6 cfg0.N = val_main_v30 (V c main_arg0) (V c main_arg3) :=
  (dat0 V c).arrAt_eq_of_cover 6 _ (fun t _ => flushed_h1 V c t) cover6

/-! ## The fully connected branch: relu(x · Wf1 + bf1) · Wf2 + bf2 -/

theorem mm_fc1 (A : FVec Ideal S2000x128 .bf16) (B : FVec Ideal S128x256 .bf16) (p : Fin 2000) (k : Fin 256) :
    matmul dot_S2000x128_S128x256_S2000x256_1_0_0_1_n_n none A B (constant S2000x256 .f32 0x00000000#32) (ix2 p k) = ∑ l : Fin 128, A (ix2 p l) * B (ix2 l k) :=
  Cert.LibDotPlain.matmul_zero_plain 2000 128 256 none A B p k

theorem mm_fc2 (A : FVec Ideal S2000x256 .bf16) (B : FVec Ideal S256x64 .bf16) (p : Fin 2000) (q : Fin 64) :
    matmul dot_S2000x256_S256x64_S2000x64_1_0_0_1_n_n none A B (constant S2000x64 .f32 0x00000000#32) (ix2 p q) = ∑ k : Fin 256, A (ix2 p k) * B (ix2 k q) :=
  Cert.LibDotPlain.matmul_zero_plain 2000 256 64 none A B p q

theorem dg_fc1 (A : FVec Ideal Cert.ReferenceIdeal.S50000x128 .f32) (B : FVec Ideal Cert.ReferenceIdeal.S128x256 .f32) (r : Fin 50000) (k : Fin 256) :
    Host.dotGeneral Cert.ReferenceIdeal.dot_S50000x128_S128x256_S50000x256_1_0_0_1_n_n none A B (ix2 r k) = ∑ l : Fin 128, A (ix2 r l) * B (ix2 l k) :=
  Cert.LibDotPlain.dotGeneral_plain 50000 128 256 none _ A B r k

theorem dg_fc2 (A : FVec Ideal Cert.ReferenceIdeal.S50000x256 .f32) (B : FVec Ideal Cert.ReferenceIdeal.S256x64 .f32) (r : Fin 50000) (q : Fin 64) :
    Host.dotGeneral Cert.ReferenceIdeal.dot_S50000x256_S256x64_S50000x64_1_0_0_1_n_n none A B (ix2 r q) = ∑ k : Fin 256, A (ix2 r k) * B (ix2 k q) :=
  Cert.LibDotPlain.dotGeneral_plain 50000 256 64 none _ A B r q

/-- The body's second stored value at entry (p, q): the hidden activation max(Σ_l x(p, l) · Wf1(l, k) + bf1(k), 0)
    contracted with Wf2 over k, plus bf2(q). -/
theorem pay_fc (xb : Vec Ideal S2000x128 .f32) (w6 : Vec Ideal S128x256 .f32) (b9 : Vec Ideal S256 .f32) (w16 : Vec Ideal S256x64 .f32) (b19 : Vec Ideal S64 .f32) (p : Fin 2000) (q : Fin 64) :
    k0_pay3 xb w6 b9 w16 b19 (ix2 p q)
      = (∑ k : Fin 256, max ((∑ l : Fin 128, xb (ix2 p l) * w6 (ix2 l k)) + b9 (ix1 k)) (Ideal.ofBits .f32 0x00000000#32) * w16 (ix2 k q)) + b19 (ix1 q) := by
  unfold k0_pay3 k0_pay1
  dsimp only
  rw [addf_apply, row_spread_cast, mm_fc2]
  refine congrArg (· + _) (Finset.sum_congr rfl fun k _ => ?_)
  rw [truncf_apply, truncf_apply, maximumf_apply, addf_apply, row_spread_cast, mm_fc1, broadcast_apply]
  rfl

/-- The reference's fully connected branch at entry (r, q): the same expression of the whole arrays. -/
theorem ref_fc (X : FVec Ideal Cert.ReferenceIdeal.S50000x128 .f32) (Wf1 : FVec Ideal Cert.ReferenceIdeal.S128x256 .f32) (bf1 : FVec Ideal Cert.ReferenceIdeal.S256 .f32)
    (Wf2 : FVec Ideal Cert.ReferenceIdeal.S256x64 .f32) (bf2 : FVec Ideal Cert.ReferenceIdeal.S64 .f32) (r : Fin 50000) (q : Fin 64) :
    val_main_v73 (F := Ideal) X Wf1 bf1 Wf2 bf2 (ix2 r q)
      = (∑ k : Fin 256, max ((∑ l : Fin 128, X (ix2 r l) * Wf1 (ix2 l k)) + bf1 (ix1 k)) (Ideal.ofBits .f32 0x00000000#32) * Wf2 (ix2 k q)) + bf2 (ix1 q) := by
  unfold val_main_v73 val_main_v72 val_main_v71 val_main_v70
  rw [addf_apply, row_spread_inDim, dg_fc2]
  refine congrArg (· + _) (Finset.sum_congr rfl fun k _ => ?_)
  unfold val_main_v69 val_main_v68 val_main_v67 val_main_v66 val_main_v65 val_main_call2_v0 val_main_call2_cst
  rw [maximumf_apply, addf_apply, row_spread_inDim, dg_fc1, splat_inDim]
  rfl

/-- What grid point `t` writes back through the second output window is block `t` of the reference's branch: the
    point's feature block holds rows 2000 t … 2000 t + 1999, and the two weight matrices and two bias vectors are read
    whole. -/
theorem flushed_fc (c : Dev nD) (t : Fin cfg0.N) :
    (dat0 V c).flushed 7 t = ((cfg0.win 7).blk t).view.read (Elt Ideal) (val_main_v73 (V c main_arg0) (V c main_arg7) (V c main_arg8) (V c main_arg9) (V c main_arg10)) := by
  show (cfg0.win 7).cut (grid0.coords t) ((dat0 V c).after 7 t) = _
  rw [after0_7]
  unfold out0_7
  rw [View.canon_unit_zero hz2]
  simp only [View.ld_unit_zero (S := S2000x128) hz2, View.ld_unit_zero (S := S128x256) hz2, View.ld_unit_zero (S := S256) hz1, View.ld_unit_zero (S := S256x64) hz2, View.ld_unit_zero (S := S64) hz1]
  funext j
  obtain ⟨p, q, rfl⟩ : ∃ (p : Fin 2000) (q : Fin 64), j = ix2 p q := ⟨j 0, j 1, eq_ix2 j⟩
  obtain ⟨e00, e01, -, -, e20, e21, e30, e40, e41, e50, -, -, e70, e71⟩ := idx_facts t
  have ht : t.val < 25 := t.isLt
  have hr : win0_7.index t (0 : Fin 2) * 2000 + p.val < 50000 := by have := p.isLt; omega
  have hemb7 : ((cfg0.win 7).blk t).view.emb (ix2 p q) = ix2 (⟨win0_7.index t (0 : Fin 2) * 2000 + p.val, hr⟩ : Fin 50000) q := by
    funext a; apply Fin.ext
    match a with
    | ⟨0, _⟩ => show win0_7.index t (0 : Fin 2) * 2000 + 1 * p.val = win0_7.index t (0 : Fin 2) * 2000 + p.val; omega
    | ⟨1, _⟩ => show win0_7.index t (1 : Fin 2) * 64 + 1 * q.val = q.val; omega
  show k0_pay3 (iblk0 V c 0 t) (iblk0 V c 2 t) (iblk0 V c 3 t) (iblk0 V c 4 t) (iblk0 V c 5 t) (ix2 p q) = val_main_v73 (V c main_arg0) (V c main_arg7) (V c main_arg8) (V c main_arg9) (V c main_arg10) (((cfg0.win 7).blk t).view.emb (ix2 p q))
  rw [hemb7]
  refine (pay_fc (iblk0 V c 0 t) (iblk0 V c 2 t) (iblk0 V c 3 t) (iblk0 V c 4 t) (iblk0 V c 5 t) p q).trans (Eq.trans ?_ (ref_fc (V c main_arg0) (V c main_arg7) (V c main_arg8) (V c main_arg9) (V c main_arg10) _ q).symm)
  have h0 : ∀ l : Fin 128, iblk0 V c 0 t (ix2 p l) = V c main_arg0 (ix2 (⟨win0_7.index t (0 : Fin 2) * 2000 + p.val, hr⟩ : Fin 50000) l) := fun l => by
    show V c main_arg0 (((cfg0.win 0).blk t).view.emb (ix2 p l)) = _
    refine congrArg (V c main_arg0) (funext fun a => Fin.ext ?_)
    match a with
    | ⟨0, _⟩ => show win0_0.index t (0 : Fin 2) * 2000 + 1 * p.val = win0_7.index t (0 : Fin 2) * 2000 + p.val; omega
    | ⟨1, _⟩ => show win0_0.index t (1 : Fin 2) * 128 + 1 * l.val = l.val; omega
  have h2 : ∀ (l : Fin 128) (k : Fin 256), iblk0 V c 2 t (ix2 l k) = V c main_arg7 (ix2 l k) := fun l k => by
    show V c main_arg7 (((cfg0.win 2).blk t).view.emb (ix2 l k)) = _
    refine congrArg (V c main_arg7) (funext fun a => Fin.ext ?_)
    match a with
    | ⟨0, _⟩ => show win0_2.index t (0 : Fin 2) * 128 + 1 * l.val = l.val; omega
    | ⟨1, _⟩ => show win0_2.index t (1 : Fin 2) * 256 + 1 * k.val = k.val; omega
  have h3 : ∀ k : Fin 256, iblk0 V c 3 t (ix1 k) = V c main_arg8 (ix1 k) := fun k => by
    show V c main_arg8 (((cfg0.win 3).blk t).view.emb (ix1 k)) = _
    refine congrArg (V c main_arg8) (funext fun a => Fin.ext ?_)
    match a with
    | ⟨0, _⟩ => show win0_3.index t (0 : Fin 1) * 256 + 1 * k.val = k.val; omega
  have h4 : ∀ (k : Fin 256) (q' : Fin 64), iblk0 V c 4 t (ix2 k q') = V c main_arg9 (ix2 k q') := fun k q' => by
    show V c main_arg9 (((cfg0.win 4).blk t).view.emb (ix2 k q')) = _
    refine congrArg (V c main_arg9) (funext fun a => Fin.ext ?_)
    match a with
    | ⟨0, _⟩ => show win0_4.index t (0 : Fin 2) * 256 + 1 * k.val = k.val; omega
    | ⟨1, _⟩ => show win0_4.index t (1 : Fin 2) * 64 + 1 * q'.val = q'.val; omega
  have h5 : iblk0 V c 5 t (ix1 q) = V c main_arg10 (ix1 q) := by
    show V c main_arg10 (((cfg0.win 5).blk t).view.emb (ix1 q)) = _
    refine congrArg (V c main_arg10) (funext fun a => Fin.ext ?_)
    match a with
    | ⟨0, _⟩ => show win0_5.index t (0 : Fin 1) * 64 + 1 * q.val = q.val; omega
  simp only [h0, h2, h3, h4, h5]

/-- An index of the array lies in point `t`'s block of the second output iff each coordinate lies in the block's range. -/
theorem mem_blk7 (t : Fin cfg0.N) (i : S50000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v30_1).slice (win0_7.rect t)).set ↔ _
  rw [View.set_slice_whole, Rect.mem_set_unit]
  exact Iff.rfl

/-- Again the 25 blocks of 2000 rows fill the 50 000 rows. -/
theorem cover7 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  refine ⟨⟨(i 0).val / 2000, by show (i 0).val / 2000 < 25; omega⟩, flush0_7 _, ?_⟩
  rw [mem_blk7]
  obtain ⟨-, -, -, -, -, -, -, -, -, -, -, -, e70, e71⟩ := idx_facts ⟨(i 0).val / 2000, by show (i 0).val / 2000 < 25; omega⟩
  intro a
  match a with
  | ⟨0, _⟩ => show win0_7.index _ (0 : Fin 2) * 2000 ≤ (i 0).val ∧ (i 0).val < win0_7.index _ (0 : Fin 2) * 2000 + 2000; rw [e70]; show (i 0).val / 2000 * 2000 ≤ (i 0).val ∧ (i 0).val < (i 0).val / 2000 * 2000 + 2000; omega
  | ⟨1, _⟩ => show win0_7.index _ (1 : Fin 2) * 64 ≤ (i 1).val ∧ (i 1).val < win0_7.index _ (1 : Fin 2) * 64 + 64; rw [e71]; omega

/-- After the first region the array of its second output holds the fully connected branch of the node features,
    entry by entry, as the region found them. -/
theorem fc_array (c : Dev nD) : (dat0 V c).arrAt 7 cfg0.N = val_main_v73 (V c main_arg0) (V c main_arg7) (V c main_arg8) (V c main_arg9) (V c main_arg10) :=
  (dat0 V c).arrAt_eq_of_cover 7 _ (fun t _ => flushed_fc V c t) cover7

end Cert.KernelIdeal.NodeTransform

end
-- ==== Proof.Stages.lean ====
/-
  The three later stages of the network, each as one function of the arrays it is computed from.

  After the first layer's messages have been summed per node (`agg`), the second layer transforms
  relu(agg + b₁) by W₂; after the second layer's messages have been summed (`agg₂`), the node embedding is the
  even mixture (agg₂ + b₂) · ½ + x_fc · ½ with the fully connected branch; and a query edge's score is the sum over
  the 64 features of the product of its two endpoint embeddings. Each is written here with the host operations the
  reference program uses for it, so that, fed the reference's own earlier stages, it IS the reference's next stage.
  So is the message passing itself: every edge (src → dst), self-loops included, carries the transformed row of src
  scaled by the edge's normalisation, and the carried rows are summed per dst — once at width 128, once at width 64.
-/
import proofs.«127649_j65180423684766_1_alg».proof.Proof.RefReadP

noncomputable section

namespace Cert.Stages

open Cert.ReferenceIdeal Cert.ReferenceIdeal.Gen Cert.ReferenceIdeal.ReadP Idealize.ShloMosaic

variable {F : FTy → Type} [FloatOps F]

/-- The second layer's transform of the summed first-layer messages: relu(agg + b₁) · W₂. -/
def secondTransform (agg : FVec F S50000x128 .f32) (b1 : FVec F S128 .f32) (w2 : FVec F S128x64 .f32) : FVec F S50000x64 .f32 :=
  Host.dotGeneral dot_S50000x128_S128x64_S50000x64_1_0_0_1_n_n none
    (maximumf (addf agg (broadcastInDim S50000x128 ![0, 1] bcast_S1x128_S50000x128_0_1 (broadcastInDim S1x128 ![1] bcast_S128_S1x128_1 b1)))
      (broadcastInDim S50000x128 ![] bcast_S_S50000x128 (constant S_ .f32 0x00000000#32))) w2

/-- The node embedding: the even mixture of the biased second-layer sum and the fully connected branch. -/
def mixture (agg2 : FVec F S50000x64 .f32) (b2 : FVec F S64 .f32) (xfc : FVec F S50000x64 .f32) : FVec F S50000x64 .f32 :=
  addf
    (mulf (addf agg2 (broadcastInDim S50000x64 ![0, 1] bcast_S1x64_S50000x64_0_1 (broadcastInDim S1x64 ![1] bcast_S64_S1x64_1 b2)))
      (broadcastInDim S50000x64 ![] bcast_S_S50000x64 (constant S_ .f32 0x3F000000#32)))
    (mulf xfc (broadcastInDim S50000x64 ![] bcast_S_S50000x64 (constant S_ .f32 0x3F000000#32)))

/-- The scores of the query edges: per edge, the sum over the features of the product of the two gathered rows. -/
def scores (za zb : FVec F S500000x64 .f32) : FVec F S500000 .f32 :=
  Host.reduceAdd (mulf za zb) (constant S_ .f32 0x00000000#32) reducesTo_S500000x64_S500000_d1 h_S_

/-- Message passing at width 128: the rows of `h` gathered at the (wrapped) source nodes, each scaled by its edge's
    normalisation, summed per destination node into a zero array. -/
def aggregate128 (h : FVec F S50000x128 .f32) (norm : FVec F S1650000 .f32) (src dst : IVec S1650000 32) : FVec F S50000x128 .f32 :=
  Host.scatterAdd scatter_S50000x128_S1650000x1_S1650000x128_1_0_0_1 (val_main_v41 (F := F))
    (broadcastInDim S1650000x1 ![0] bcast_S1650000_S1650000x1_0 dst)
    (mulf (broadcastInDim S1650000x128 ![0, 1] bcast_S1650000x1_S1650000x128_0_1 (broadcastInDim S1650000x1 ![0] bcast_S1650000_S1650000x1_0 norm))
      (Host.gather gather_S50000x128_S1650000x1_S1650000x128_1_0_n_n_0_1_1128 h
        (broadcastInDim S1650000x1 ![0] bcast_S1650000_S1650000x1_0
          (select (cmpi .slt src (val_main_v32 (F := F))) (addi src (val_main_v34 (F := F))) src))))

/-- Message passing at width 64: the same with the second layer's transformed rows. -/
def aggregate64 (h : FVec F S50000x64 .f32) (norm : FVec F S1650000 .f32) (src dst : IVec S1650000 32) : FVec F S50000x64 .f32 :=
  Host.scatterAdd scatter_S50000x64_S1650000x1_S1650000x64_1_0_0_1 (val_main_v59 (F := F))
    (broadcastInDim S1650000x1 ![0] bcast_S1650000_S1650000x1_0 dst)
    (mulf (broadcastInDim S1650000x64 ![0, 1] bcast_S1650000x1_S1650000x64_0_1 (broadcastInDim S1650000x1 ![0] bcast_S1650000_S1650000x1_0 norm))
      (Host.gather gather_S50000x64_S1650000x1_S1650000x64_1_0_n_n_0_1_164 h
        (broadcastInDim S1650000x1 ![0] bcast_S1650000_S1650000x1_0
          (select (cmpi .slt src (val_main_v50 (F := F))) (addi src (val_main_v52 (F := F))) src))))

variable (x0 : FVec F S50000x128 .f32) (x1 : IVec S2x1600000 32) (x2 : IVec S2x500000 32) (x3 : FVec F S128x128 .f32) (x4 : FVec F S128 .f32)
  (x5 : FVec F S128x64 .f32) (x6 : FVec F S64 .f32) (x7 : FVec F S128x256 .f32) (x8 : FVec F S256 .f32) (x9 : FVec F S256x64 .f32) (x10 : FVec F S64 .f32)

/-- Fed the reference's first-layer transform and its edge data, message passing at width 128 is the reference's summed
    first-layer messages. -/
theorem aggregate128_ref :
    aggregate128 (val_main_v30 (F := F) x0 x3) (val_main_v29 (F := F) x1) (val_main_v3 (F := F) x1) (val_main_v6 (F := F) x1)
      = val_main_v43 (F := F) x0 x1 x3 := by
  unfold aggregate128 val_main_v43 val_main_v42 val_main_v40 val_main_v39 val_main_v31 val_main_v38 val_main_v37 val_main_v36 val_main_v35 val_main_v33
  rfl

/-- Fed the reference's second-layer transform and its edge data, message passing at width 64 is the reference's summed
    second-layer messages. -/
theorem aggregate64_ref :
    aggregate64 (val_main_v48 (F := F) x0 x1 x3 x4 x5) (val_main_v29 (F := F) x1) (val_main_v3 (F := F) x1) (val_main_v6 (F := F) x1)
      = val_main_v61 (F := F) x0 x1 x3 x4 x5 := by
  unfold aggregate64 val_main_v61 val_main_v60 val_main_v58 val_main_v57 val_main_v49 val_main_v56 val_main_v55 val_main_v54 val_main_v53 val_main_v51
  rfl

/-- Fed the reference's summed first-layer messages, the transform is the reference's second-layer product. -/
theorem secondTransform_ref :
    secondTransform (val_main_v43 (F := F) x0 x1 x3) x4 x5 = val_main_v48 (F := F) x0 x1 x3 x4 x5 := by
  unfold secondTransform val_main_v48 val_main_v47 val_main_v46 val_main_v45 val_main_v44 val_main_call1_v0 val_main_call1_cst
  rfl

/-- Fed the reference's summed second-layer messages and its fully connected branch, the mixture is the reference's
    node embedding. -/
theorem mixture_ref :
    mixture (val_main_v61 (F := F) x0 x1 x3 x4 x5) x6 (val_main_v73 (F := F) x0 x7 x8 x9 x10) = val_main_v78 (F := F) x0 x1 x3 x4 x5 x6 x7 x8 x9 x10 := by
  unfold mixture val_main_v78 val_main_v77 val_main_v76 val_main_cst_13 val_main_v75 val_main_v74 val_main_cst_12 val_main_v64 val_main_v63 val_main_v62
  rfl

/-- Fed the reference's two gathered embedding arrays, the scores are the reference's result. -/
theorem scores_ref :
    scores (val_main_v87 (F := F) x0 x1 x2 x3 x4 x5 x6 x7 x8 x9 x10) (val_main_v96 (F := F) x0 x1 x2 x3 x4 x5 x6 x7 x8 x9 x10)
      = val_main_v98 (F := F) x0 x1 x2 x3 x4 x5 x6 x7 x8 x9 x10 := by
  unfold scores val_main_v98 val_main_v97 val_main_cst_18
  rfl

end Cert.Stages

end
-- ==== Proof.LayerTwo.lean ====
/-
  The second pallas_call: the second GCN layer's transform, read as a whole array.

  Row-tiled like the first call, it stores for every node relu(agg + b₁) · W₂, where agg is the array of summed
  first-layer messages the host scatter left. Block t of the output is block t of that whole-array expression (the bias
  is spread over the rows, the relu is the maximum with the zero splat, the product accumulated from zero is the plain
  sum of products), and the 25 blocks tile the 50 000 rows.
-/
import proofs.«127649_j65180423684766_1_alg».proof.Proof.Gen.KernelIdeal.Frame
import proofs.«127649_j65180423684766_1_alg».proof.Proof.RefReadP
import proofs.«127649_j65180423684766_1_alg».proof.Proof.LibDotPlain
import proofs.«127649_j65180423684766_1_alg».proof.Proof.LibRows
import proofs.«127649_j65180423684766_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerTwo

open Cert.KernelIdeal Cert.KernelIdeal.Gen Idealize.ShloMosaic Idealize.ShloMosaic.TcCoe Idealize.ShloMosaic.ValueIdx Idealize.SL.Sem
open Idealize.ShloMosaic.Pipeline (Dat)
open Cert.LibRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the 25 grid points: the message window and the output window step down the rows
    2000 at a time; the bias and the weight window stay at their one block. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem mm_l2 (A : FVec Ideal S2000x128 .bf16) (B : FVec Ideal S128x64 .bf16) (p : Fin 2000) (q : Fin 64) :
    matmul dot_S2000x128_S128x64_S2000x64_1_0_0_1_n_n none A B (constant S2000x64 .f32 0x00000000#32) (ix2 p q) = ∑ k : Fin 128, A (ix2 p k) * B (ix2 k q) :=
  Cert.LibDotPlain.matmul_zero_plain 2000 128 64 none A B p q

theorem dg_l2 (A : FVec Ideal Cert.ReferenceIdeal.S50000x128 .f32) (B : FVec Ideal Cert.ReferenceIdeal.S128x64 .f32) (r : Fin 50000) (q : Fin 64) :
    Host.dotGeneral Cert.ReferenceIdeal.dot_S50000x128_S128x64_S50000x64_1_0_0_1_n_n none A B (ix2 r q) = ∑ k : Fin 128, A (ix2 r k) * B (ix2 k q) :=
  Cert.LibDotPlain.dotGeneral_plain 50000 128 64 none _ A B r q

/-- The body's stored value at entry (p, q): Σ_k max(agg(p, k) + b₁(k), 0) · W₂(k, q). -/
theorem pay_l2 (ab : Vec Ideal S2000x128 .f32) (b1 : Vec Ideal S128 .f32) (w : Vec Ideal S128x64 .f32) (p : Fin 2000) (q : Fin 64) :
    k1_pay1 ab b1 w (ix2 p q) = ∑ k : Fin 128, max (ab (ix2 p k) + b1 (ix1 k)) (Ideal.ofBits .f32 0x00000000#32) * w (ix2 k q) := by
  unfold k1_pay1
  rw [mm_l2]
  refine Finset.sum_congr rfl fun k _ => ?_
  rw [truncf_apply, truncf_apply, maximumf_apply, addf_apply, row_spread_cast, broadcast_apply, shapeCast_self]
  rfl

/-- The whole-array transform at entry (r, q): the same expression of the whole arrays. -/
theorem stage_l2 (A : FVec Ideal Cert.ReferenceIdeal.S50000x128 .f32) (b1 : FVec Ideal Cert.ReferenceIdeal.S128 .f32) (W2 : FVec Ideal Cert.ReferenceIdeal.S128x64 .f32) (r : Fin 50000) (q : Fin 64) :
    Cert.Stages.secondTransform (F := Ideal) A b1 W2 (ix2 r q) = ∑ k : Fin 128, max (A (ix2 r k) + b1 (ix1 k)) (Ideal.ofBits .f32 0x00000000#32) * W2 (ix2 k q) := by
  unfold Cert.Stages.secondTransform
  rw [dg_l2]
  refine Finset.sum_congr rfl fun k _ => ?_
  rw [maximumf_apply, addf_apply, row_spread_inDim, splat_inDim]
  rfl

/-- What grid point `t` writes back is block `t` of the whole-array transform of the arrays the region found. -/
theorem flushed_l2 (c : Dev nD) (t : Fin cfg1.N) :
    (dat1 V c).flushed 3 t = ((cfg1.win 3).blk t).view.read (Elt Ideal) (Cert.Stages.secondTransform (F := Ideal) (V c main_v43) (V c main_arg4) (V c main_arg5)) := by
  show (cfg1.win 3).cut (grid1.coords t) ((dat1 V c).after 3 t) = _
  rw [after1_3]
  unfold out1_3
  rw [View.canon_unit_zero hz2]
  simp only [View.ld_unit_zero (S := S2000x128) hz2, View.ld_unit_zero (S := S128) hz1, View.ld_unit_zero (S := S128x64) hz2]
  funext j
  obtain ⟨p, q, rfl⟩ : ∃ (p : Fin 2000) (q : Fin 64), j = ix2 p q := ⟨j 0, j 1, eq_ix2 j⟩
  obtain ⟨e00, e01, e10, e20, e21, e30, e31⟩ := idx_facts t
  have ht : t.val < 25 := t.isLt
  have hr : win1_3.index t (0 : Fin 2) * 2000 + p.val < 50000 := by have := p.isLt; omega
  have hemb : ((cfg1.win 3).blk t).view.emb (ix2 p q) = ix2 (⟨win1_3.index t (0 : Fin 2) * 2000 + p.val, hr⟩ : Fin 50000) q := by
    funext a; apply Fin.ext
    match a with
    | ⟨0, _⟩ => show win1_3.index t (0 : Fin 2) * 2000 + 1 * p.val = win1_3.index t (0 : Fin 2) * 2000 + p.val; omega
    | ⟨1, _⟩ => show win1_3.index t (1 : Fin 2) * 64 + 1 * q.val = q.val; omega
  show k1_pay1 (iblk1 V c 0 t) (iblk1 V c 1 t) (iblk1 V c 2 t) (ix2 p q) = Cert.Stages.secondTransform (F := Ideal) (V c main_v43) (V c main_arg4) (V c main_arg5) (((cfg1.win 3).blk t).view.emb (ix2 p q))
  rw [hemb]
  refine (pay_l2 (iblk1 V c 0 t) (iblk1 V c 1 t) (iblk1 V c 2 t) p q).trans (Eq.trans ?_ (stage_l2 (V c main_v43) (V c main_arg4) (V c main_arg5) _ q).symm)
  have h0 : ∀ k : Fin 128, iblk1 V c 0 t (ix2 p k) = V c main_v43 (ix2 (⟨win1_3.index t (0 : Fin 2) * 2000 + p.val, hr⟩ : Fin 50000) k) := fun k => by
    show V c main_v43 (((cfg1.win 0).blk t).view.emb (ix2 p k)) = _
    refine congrArg (V c main_v43) (funext fun a => Fin.ext ?_)
    match a with
    | ⟨0, _⟩ => show win1_0.index t (0 : Fin 2) * 2000 + 1 * p.val = win1_3.index t (0 : Fin 2) * 2000 + p.val; omega
    | ⟨1, _⟩ => show win1_0.index t (1 : Fin 2) * 128 + 1 * k.val = k.val; omega
  have h1 : ∀ k : Fin 128, iblk1 V c 1 t (ix1 k) = V c main_arg4 (ix1 k) := fun k => by
    show V c main_arg4 (((cfg1.win 1).blk t).view.emb (ix1 k)) = _
    refine congrArg (V c main_arg4) (funext fun a => Fin.ext ?_)
    match a with
    | ⟨0, _⟩ => show win1_1.index t (0 : Fin 1) * 128 + 1 * k.val = k.val; omega
  have h2 : ∀ k : Fin 128, iblk1 V c 2 t (ix2 k q) = V c main_arg5 (ix2 k q) := fun k => by
    show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  simp only [h0, h1, h2]

/-- An index of the array lies in point `t`'s output block iff each coordinate lies in the block's range. -/
theorem mem_blk (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v44).slice (win1_3.rect t)).set ↔ _
  rw [View.set_slice_whole, Rect.mem_set_unit]
  exact Iff.rfl

/-- The 25 blocks of 2000 rows fill the 50 000 rows. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  refine ⟨⟨(i 0).val / 2000, by show (i 0).val / 2000 < 25; omega⟩, flush1_3 _, ?_⟩
  rw [mem_blk]
  obtain ⟨-, -, -, -, -, e30, e31⟩ := idx_facts ⟨(i 0).val / 2000, by show (i 0).val / 2000 < 25; omega⟩
  intro a
  match a with
  | ⟨0, _⟩ => show win1_3.index _ (0 : Fin 2) * 2000 ≤ (i 0).val ∧ (i 0).val < win1_3.index _ (0 : Fin 2) * 2000 + 2000; rw [e30]; show (i 0).val / 2000 * 2000 ≤ (i 0).val ∧ (i 0).val < (i 0).val / 2000 * 2000 + 2000; omega
  | ⟨1, _⟩ => show win1_3.index _ (1 : Fin 2) * 64 ≤ (i 1).val ∧ (i 1).val < win1_3.index _ (1 : Fin 2) * 64 + 64; rw [e31]; omega

/-- After the second region its output array holds the second layer's transform of the summed messages, the bias and
    the weights as the region found them. -/
theorem l2_array (c : Dev nD) : (dat1 V c).arrAt 3 cfg1.N = Cert.Stages.secondTransform (F := Ideal) (V c main_v43) (V c main_arg4) (V c main_arg5) :=
  (dat1 V c).arrAt_eq_of_cover 3 _ (fun t _ => flushed_l2 V c t) cover

end Cert.KernelIdeal.LayerTwo

end
-- ==== Proof.Embedding.lean ====
/-
  The third pallas_call: the node embedding, read as a whole array.

  Row-tiled like the first two, it stores for every node (agg₂ + b₂) · ½ + x_fc · ½ — the biased sum of second-layer
  messages mixed evenly with the fully connected branch. The body is pointwise, so block t of the output is block t of
  the whole-array expression, and the 25 blocks tile the 50 000 rows. The constant ½ is the same binary word in the
  kernel and in the reference; it is never evaluated.
-/
import proofs.«127649_j65180423684766_1_alg».proof.Proof.Gen.KernelIdeal.Frame
import proofs.«127649_j65180423684766_1_alg».proof.Proof.RefReadP
import proofs.«127649_j65180423684766_1_alg».proof.Proof.LibDotPlain
import proofs.«127649_j65180423684766_1_alg».proof.Proof.LibRows
import proofs.«127649_j65180423684766_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Embedding

open Cert.KernelIdeal Cert.KernelIdeal.Gen Idealize.ShloMosaic Idealize.ShloMosaic.TcCoe Idealize.ShloMosaic.ValueIdx Idealize.SL.Sem
open Idealize.ShloMosaic.Pipeline (Dat)
open Cert.LibRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the 25 grid points: the two row-tiled inputs and the output step down the rows 2000
    at a time; the bias window stays at its one block. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The body's stored value at entry (p, q): (agg₂(p, q) + b₂(q)) · ½ + x_fc(p, q) · ½. -/
theorem pay_mix (ab : Vec Ideal S2000x64 .f32) (b2 : Vec Ideal S64 .f32) (fb : Vec Ideal S2000x64 .f32) (p : Fin 2000) (q : Fin 64) :
    k2_pay1 ab b2 fb (ix2 p q)
      = (ab (ix2 p q) + b2 (ix1 q)) * Ideal.ofBits .f32 0x3F000000#32 + fb (ix2 p q) * Ideal.ofBits .f32 0x3F000000#32 := by
  unfold k2_pay1
  simp only [addf_apply, mulf_apply, row_spread_cast, broadcast_apply, shapeCast_self]
  rfl

/-- The whole-array mixture at entry (r, q): the same expression of the whole arrays. -/
theorem stage_mix (A : FVec Ideal Cert.ReferenceIdeal.S50000x64 .f32) (b2 : FVec Ideal Cert.ReferenceIdeal.S64 .f32) (X : FVec Ideal Cert.ReferenceIdeal.S50000x64 .f32) (r : Fin 50000) (q : Fin 64) :
    Cert.Stages.mixture (F := Ideal) A b2 X (ix2 r q)
      = (A (ix2 r q) + b2 (ix1 q)) * Ideal.ofBits .f32 0x3F000000#32 + X (ix2 r q) * Ideal.ofBits .f32 0x3F000000#32 := by
  unfold Cert.Stages.mixture
  rw [addf_apply, mulf_apply, mulf_apply, addf_apply, row_spread_inDim, splat_inDim]
  rfl

/-- What grid point `t` writes back is block `t` of the whole-array mixture of the arrays the region found. -/
theorem flushed_mix (c : Dev nD) (t : Fin cfg2.N) :
    (dat2 V c).flushed 3 t = ((cfg2.win 3).blk t).view.read (Elt Ideal) (Cert.Stages.mixture (F := Ideal) (V c main_v57) (V c main_arg6) (V c main_v30_1)) := by
  show (cfg2.win 3).cut (grid2.coords t) ((dat2 V c).after 3 t) = _
  rw [after2_3]
  unfold out2_3
  rw [View.canon_unit_zero hz2]
  simp only [View.ld_unit_zero (S := S2000x64) hz2, View.ld_unit_zero (S := S64) hz1]
  funext j
  obtain ⟨p, q, rfl⟩ : ∃ (p : Fin 2000) (q : Fin 64), j = ix2 p q := ⟨j 0, j 1, eq_ix2 j⟩
  obtain ⟨e00, e01, e10, e20, e21, e30, e31⟩ := idx_facts t
  have ht : t.val < 25 := t.isLt
  have hr : win2_3.index t (0 : Fin 2) * 2000 + p.val < 50000 := by have := p.isLt; omega
  have hemb : ((cfg2.win 3).blk t).view.emb (ix2 p q) = ix2 (⟨win2_3.index t (0 : Fin 2) * 2000 + p.val, hr⟩ : Fin 50000) q := by
    funext a; apply Fin.ext
    match a with
    | ⟨0, _⟩ => show win2_3.index t (0 : Fin 2) * 2000 + 1 * p.val = win2_3.index t (0 : Fin 2) * 2000 + p.val; omega
    | ⟨1, _⟩ => show win2_3.index t (1 : Fin 2) * 64 + 1 * q.val = q.val; omega
  show k2_pay1 (iblk2 V c 0 t) (iblk2 V c 1 t) (iblk2 V c 2 t) (ix2 p q) = Cert.Stages.mixture (F := Ideal) (V c main_v57) (V c main_arg6) (V c main_v30_1) (((cfg2.win 3).blk t).view.emb (ix2 p q))
  rw [hemb]
  refine (pay_mix (iblk2 V c 0 t) (iblk2 V c 1 t) (iblk2 V c 2 t) p q).trans (Eq.trans ?_ (stage_mix (V c main_v57) (V c main_arg6) (V c main_v30_1) _ q).symm)
  have h0 : iblk2 V c 0 t (ix2 p q) = V c main_v57 (ix2 (⟨win2_3.index t (0 : Fin 2) * 2000 + p.val, hr⟩ : Fin 50000) q) := by
    show V c main_v57 (((cfg2.win 0).blk t).view.emb (ix2 p q)) = _
    refine congrArg (V c main_v57) (funext fun a => Fin.ext ?_)
    match a with
    | ⟨0, _⟩ => show win2_0.index t (0 : Fin 2) * 2000 + 1 * p.val = win2_3.index t (0 : Fin 2) * 2000 + p.val; omega
    | ⟨1, _⟩ => show win2_0.index t (1 : Fin 2) * 64 + 1 * q.val = q.val; omega
  have h1 : iblk2 V c 1 t (ix1 q) = V c main_arg6 (ix1 q) := by
    show V c main_arg6 (((cfg2.win 1).blk t).view.emb (ix1 q)) = _
    refine congrArg (V c main_arg6) (funext fun a => Fin.ext ?_)
    match a with
    | ⟨0, _⟩ => show win2_1.index t (0 : Fin 1) * 64 + 1 * q.val = q.val; omega
  have h2 : iblk2 V c 2 t (ix2 p q) = V c main_v30_1 (ix2 (⟨win2_3.index t (0 : Fin 2) * 2000 + p.val, hr⟩ : Fin 50000) q) := by
    show V c main_v30_1 (((cfg2.win 2).blk t).view.emb (ix2 p q)) = _
    refine congrArg (V c main_v30_1) (funext fun a => Fin.ext ?_)
    match a with
    | ⟨0, _⟩ => show win2_2.index t (0 : Fin 2) * 2000 + 1 * p.val = win2_3.index t (0 : Fin 2) * 2000 + p.val; omega
    | ⟨1, _⟩ => show win2_2.index t (1 : Fin 2) * 64 + 1 * q.val = q.val; omega
  rw [h0, h1, h2]

/-- An index of the array lies in point `t`'s output block iff each coordinate lies in the block's range. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v58).slice (win2_3.rect t)).set ↔ _
  rw [View.set_slice_whole, Rect.mem_set_unit]
  exact Iff.rfl

/-- The 25 blocks of 2000 rows fill the 50 000 rows. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  refine ⟨⟨(i 0).val / 2000, by show (i 0).val / 2000 < 25; omega⟩, flush2_3 _, ?_⟩
  rw [mem_blk]
  obtain ⟨-, -, -, -, -, e30, e31⟩ := idx_facts ⟨(i 0).val / 2000, by show (i 0).val / 2000 < 25; omega⟩
  intro a
  match a with
  | ⟨0, _⟩ => show win2_3.index _ (0 : Fin 2) * 2000 ≤ (i 0).val ∧ (i 0).val < win2_3.index _ (0 : Fin 2) * 2000 + 2000; rw [e30]; show (i 0).val / 2000 * 2000 ≤ (i 0).val ∧ (i 0).val < (i 0).val / 2000 * 2000 + 2000; omega
  | ⟨1, _⟩ => show win2_3.index _ (1 : Fin 2) * 64 ≤ (i 1).val ∧ (i 1).val < win2_3.index _ (1 : Fin 2) * 64 + 64; rw [e31]; omega

/-- After the third region its output array holds the node embeddings: the mixture of the summed second-layer
    messages, their bias and the fully connected branch, as the region found them. -/
theorem mix_array (c : Dev nD) : (dat2 V c).arrAt 3 cfg2.N = Cert.Stages.mixture (F := Ideal) (V c main_v57) (V c main_arg6) (V c main_v30_1) :=
  (dat2 V c).arrAt_eq_of_cover 3 _ (fun t _ => flushed_mix V c t) cover

end Cert.KernelIdeal.Embedding

end
-- ==== Proof.EdgeScores.lean ====
/-
  The fourth pallas_call and the host operations around it: the query edges' scores.

  The two gathered arrays of endpoint embeddings (500 000 rows of 64) are padded with 3808 further rows to 123 blocks
  of 4096; the call stores, per row, the sum over the 64 features of the product of the two rows; the host then keeps
  the first 500 000 entries. A kept entry's row lies inside both unpadded arrays, so the padding value plays no part,
  and the lane sum started from zero is the host's sum with zero initial value: the kept entries are exactly the
  reference's scores of the unpadded arrays.
-/
import proofs.«127649_j65180423684766_1_alg».proof.Proof.Gen.KernelIdeal.Frame
import proofs.«127649_j65180423684766_1_alg».proof.Proof.RefReadP
import proofs.«127649_j65180423684766_1_alg».proof.Proof.LibDotPlain
import proofs.«127649_j65180423684766_1_alg».proof.Proof.LibRows
import proofs.«127649_j65180423684766_1_alg».proof.Proof.Stages
import Idealize.ShloMosaic.Lib.Pipeline.Value
import Idealize.ShloMosaic.Lib.KernelVsHost
import Idealize.ShloMosaic.Lib.ValueIdx
import Idealize.ShloMosaic.Lib.ValueLayout
import Idealize.ShloMosaic.PureOps.Ideal.Laws

set_option maxRecDepth 16384

noncomputable section

namespace Cert.KernelIdeal.EdgeScores

open Cert.KernelIdeal Cert.KernelIdeal.Gen Idealize.ShloMosaic Idealize.ShloMosaic.TcCoe Idealize.ShloMosaic.ValueIdx Idealize.SL.Sem
open Idealize.ShloMosaic.Pipeline (Dat)
open Cert.LibRows

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Per row, the sum over the 64 features of the product of two arrays' rows: what the call leaves, as one function
    of the two padded arrays. -/
def rowDots (A B : FVec Ideal S503808x64 .f32) : FVec Ideal S503808 .f32 :=
  fun i => ∑ k : Fin 64, A (ix2 (⟨(i 0).val, (i 0).isLt⟩ : Fin 503808) k) * B (ix2 (⟨(i 0).val, (i 0).isLt⟩ : Fin 503808) k)

theorem rowDots_apply (A B : FVec Ideal S503808x64 .f32) (r : Fin 503808) :
    rowDots A B (ix1 r) = ∑ k : Fin 64, A (ix2 r k) * B (ix2 r k) := rfl

/-- Summing an n × 64 array over its second axis inserts the summed coordinate after the row: the index (r, k). -/
theorem lift_row {n : Nat} (h : Shape.Reduces ⟨2, ![n, 64]⟩ [1] ⟨1, ![n]⟩) (r : Fin n) (k : Fin 64) :
    h.lift (ix1 r) k = ix2 r k :=
  funext fun d => Fin.ext (by match d with | ⟨0, _⟩ => rfl | ⟨1, _⟩ => rfl)

/-- The printed index maps over the 123 grid points: both inputs and the output step down the rows 4096 at a time. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = t.val :=
  (by decide +kernel : ∀ t : Fin grid3.N, _)

/-- The body's stored value at row p: Σ_k a(p, k) · b(p, k); the lane sum starts from the zero word. -/
theorem pay_scores (a b : Vec Ideal S4096x64 .f32) (p : Fin 4096) :
    k3_pay1 a b (ix1 p) = ∑ k : Fin 64, a (ix2 p k) * b (ix2 p k) := by
  unfold k3_pay1
  dsimp only
  refine (Ideal.multiReduction_add_single _ _ reduces_S4096x64_S4096 _ _ (ix1 p)).trans ?_
  refine Finset.sum_congr rfl fun k _ => ?_
  rw [mulf_apply, shapeCast_self, shapeCast_self]
  exact congrArg₂ (fun u v => a u * b v) (lift_row reduces_S4096x64_S4096 p k) (lift_row reduces_S4096x64_S4096 p k)

/-- The reference's scores at edge r: Σ_k za(r, k) · zb(r, k); the host sum's initial value is the zero word. -/
theorem stage_scores (za zb : FVec Ideal Cert.ReferenceIdeal.S500000x64 .f32) (r : Fin 500000) :
    Cert.Stages.scores (F := Ideal) za zb (ix1 r) = ∑ k : Fin 64, za (ix2 r k) * zb (ix2 r k) := by
  unfold Cert.Stages.scores
  generalize hy : mulf za zb = y0
  simp only [Host.reduceAdd, Ideal.hostReduceAdd_def]
  rw [Ideal.hostReduceAdd_single Cert.ReferenceIdeal.Gen.reducesTo_S500000x64_S500000_d1 (by decide)]
  subst hy
  rw [constant_apply, Ideal.ofBits_zero_f32, zero_add]
  refine Finset.sum_congr rfl fun k _ => ?_
  rw [mulf_apply]
  exact congrArg₂ (fun u v => za u * zb v) (lift_row _ r k) (lift_row _ r k)

/-- What grid point `t` writes back is block `t` of the row-wise sums of products of the two arrays the region found. -/
theorem flushed_scores (c : Dev nD) (t : Fin cfg3.N) :
    (dat3 V c).flushed 2 t = ((cfg3.win 2).blk t).view.read (Elt Ideal) (rowDots (V c main_v77) (V c main_v78)) := by
  show (cfg3.win 2).cut (grid3.coords t) ((dat3 V c).after 2 t) = _
  rw [after3_2]
  unfold out3_2
  rw [View.canon_unit_zero hz1]
  simp only [View.ld_unit_zero (S := S4096x64) hz2]
  funext j
  obtain ⟨p, rfl⟩ : ∃ p : Fin 4096, j = ix1 p := ⟨j 0, eq_ix1 j⟩
  obtain ⟨e00, e01, e10, e11, e20⟩ := idx_facts t
  have ht : t.val < 123 := t.isLt
  have hr : win3_2.index t (0 : Fin 1) * 4096 + p.val < 503808 := by have := p.isLt; omega
  have hemb : ((cfg3.win 2).blk t).view.emb (ix1 p) = ix1 (⟨win3_2.index t (0 : Fin 1) * 4096 + p.val, hr⟩ : Fin 503808) := by
    funext a; apply Fin.ext
    match a with
    | ⟨0, _⟩ => show win3_2.index t (0 : Fin 1) * 4096 + 1 * p.val = win3_2.index t (0 : Fin 1) * 4096 + p.val; omega
  show k3_pay1 (iblk3 V c 0 t) (iblk3 V c 1 t) (ix1 p) = rowDots (V c main_v77) (V c main_v78) (((cfg3.win 2).blk t).view.emb (ix1 p))
  rw [hemb]
  refine (pay_scores (iblk3 V c 0 t) (iblk3 V c 1 t) p).trans (Eq.trans ?_ (rowDots_apply (V c main_v77) (V c main_v78) _).symm)
  have h0 : ∀ k : Fin 64, iblk3 V c 0 t (ix2 p k) = V c main_v77 (ix2 (⟨win3_2.index t (0 : Fin 1) * 4096 + p.val, hr⟩ : Fin 503808) k) := fun k => by
    show V c main_v77 (((cfg3.win 0).blk t).view.emb (ix2 p k)) = _
    refine congrArg (V c main_v77) (funext fun a => Fin.ext ?_)
    match a with
    | ⟨0, _⟩ => show win3_0.index t (0 : Fin 2) * 4096 + 1 * p.val = win3_2.index t (0 : Fin 1) * 4096 + p.val; omega
    | ⟨1, _⟩ => show win3_0.index t (1 : Fin 2) * 64 + 1 * k.val = k.val; omega
  have h1 : ∀ k : Fin 64, iblk3 V c 1 t (ix2 p k) = V c main_v78 (ix2 (⟨win3_2.index t (0 : Fin 1) * 4096 + p.val, hr⟩ : Fin 503808) k) := fun k => by
    show V c main_v78 (((cfg3.win 1).blk t).view.emb (ix2 p k)) = _
    refine congrArg (V c main_v78) (funext fun a => Fin.ext ?_)
    match a with
    | ⟨0, _⟩ => show win3_1.index t (0 : Fin 2) * 4096 + 1 * p.val = win3_2.index t (0 : Fin 1) * 4096 + p.val; omega
    | ⟨1, _⟩ => show win3_1.index t (1 : Fin 2) * 64 + 1 * k.val = k.val; omega
  simp only [h0, h1]

/-- An index of the array lies in point `t`'s output block iff its coordinate lies in the block's range. -/
theorem mem_blk (t : Fin cfg3.N) (i : S503808.Idx) :
    i ∈ ((cfg3.win 2).blk t).view.set ↔ ∀ a : Fin 1, win3_2.index t a * S4096.size a ≤ (i a).val ∧ (i a).val < win3_2.index t a * S4096.size a + S4096.size a := by
  show i ∈ ((View.whole main_v79).slice (win3_2.rect t)).set ↔ _
  rw [View.set_slice_whole, Rect.mem_set_unit]
  exact Iff.rfl

/-- The 123 blocks of 4096 entries fill the 503 808 entries: entry r is in the block of point r / 4096. -/
theorem cover (i : S503808.Idx) : ∃ t : Fin cfg3.N, (cfg3.win 2).flush t = true ∧ i ∈ ((cfg3.win 2).blk t).view.set := by
  have hi0 : (i 0).val < 503808 := (i 0).isLt
  refine ⟨⟨(i 0).val / 4096, by show (i 0).val / 4096 < 123; omega⟩, flush3_2 _, ?_⟩
  rw [mem_blk]
  obtain ⟨-, -, -, -, e20⟩ := idx_facts ⟨(i 0).val / 4096, by show (i 0).val / 4096 < 123; omega⟩
  intro a
  match a with
  | ⟨0, _⟩ => show win3_2.index _ (0 : Fin 1) * 4096 ≤ (i 0).val ∧ (i 0).val < win3_2.index _ (0 : Fin 1) * 4096 + 4096; rw [e20]; show (i 0).val / 4096 * 4096 ≤ (i 0).val ∧ (i 0).val < (i 0).val / 4096 * 4096 + 4096; omega

/-- After the fourth region its output array holds, per row, the sum of products of the two arrays' rows, as the
    region found them. -/
theorem scores_array (c : Dev nD) : (dat3 V c).arrAt 2 cfg3.N = rowDots (V c main_v77) (V c main_v78) :=
  (dat3 V c).arrAt_eq_of_cover 2 _ (fun t _ => flushed_scores V c t) cover

/-- The first 500 000 row sums of two arrays each padded from 500 000 to 503 808 rows are the reference's scores of the
    unpadded arrays: a kept row lies inside both operands, so neither padding value is read. -/
theorem kept_scores (za zb : FVec Ideal S500000x64 .f32) (z z' : FVec Ideal S_ .f32) :
    extractStridedSlice S500000 ![0]
        (rowDots (pad S503808x64 ![0, 0] ![3808, 0] ![0, 0] za z pads_S500000x64_S503808x64_038080_000 h_S_)
          (pad S503808x64 ![0, 0] ![3808, 0] ![0, 0] zb z' pads_S500000x64_S503808x64_038080_000 h_S_))
        slices_S503808_S500000_0
      = Cert.Stages.scores (F := Ideal) za zb := by
  funext i
  obtain ⟨r, rfl⟩ : ∃ r : Fin 500000, i = ix1 r := ⟨i 0, eq_ix1 i⟩
  have hr : r.val < 503808 := by have := r.isLt; omega
  refine (extractStridedSlice_apply ![0] _ slices_S503808_S500000_0 (ix1 r) (ix1 (⟨r.val, hr⟩ : Fin 503808)) (fun a => ?_)).trans ?_
  · match a with
    | ⟨0, _⟩ => show r.val = 0 + r.val; omega
  rw [rowDots_apply, stage_scores]
  refine Finset.sum_congr rfl fun k _ => ?_
  have ea : pad S503808x64 ![0, 0] ![3808, 0] ![0, 0] za z pads_S500000x64_S503808x64_038080_000 h_S_ (ix2 (⟨r.val, hr⟩ : Fin 503808) k) = za (ix2 r k) :=
    pad_apply_of_inside ![0, 0] ![3808, 0] ![0, 0] za z pads_S500000x64_S503808x64_038080_000 h_S_ _ (ix2 r k) (fun a => by
      match a with
      | ⟨0, _⟩ => show r.val = 0 + r.val * (0 + 1); omega
      | ⟨1, _⟩ => show k.val = 0 + k.val * (0 + 1); omega)
  have eb : pad S503808x64 ![0, 0] ![3808, 0] ![0, 0] zb z' pads_S500000x64_S503808x64_038080_000 h_S_ (ix2 (⟨r.val, hr⟩ : Fin 503808) k) = zb (ix2 r k) :=
    pad_apply_of_inside ![0, 0] ![3808, 0] ![0, 0] zb z' pads_S500000x64_S503808x64_038080_000 h_S_ _ (ix2 r k) (fun a => by
      match a with
      | ⟨0, _⟩ => show r.val = 0 + r.val * (0 + 1); omega
      | ⟨1, _⟩ => show k.val = 0 + k.val * (0 + 1); omega)
  rw [ea, eb]

end Cert.KernelIdeal.EdgeScores

end
-- ==== Proof.HostChains.lean ====
/-
  The host operations between the pallas_calls, read as functions of the buffers they are given.

  @main's host operations come in five stretches: the edge data (the source and destination lists with the self-loops
  appended, the degree by a scatter-add of ones, its inverse square root where positive, and the per-edge normalisation);
  message passing at width 128 after the first call; message passing at width 64 after the second; the two gathers of
  endpoint embeddings with their padding after the third; and the final slice after the fourth. Started from ANY buffer
  contents `W`, each stretch leaves in the buffer it is followed for the corresponding function of what `W` held in
  the buffers it reads — the reference's own stage where the stretch is one the reference also has — and leaves the
  buffers it does not write as they were. Nothing here opens a gather or a scatter: they are carried as they stand.
-/
import proofs.«127649_j65180423684766_1_alg».proof.Proof.Gen.KernelIdeal.Launch
import proofs.«127649_j65180423684766_1_alg».proof.Proof.RefReadP
import proofs.«127649_j65180423684766_1_alg».proof.Proof.Stages
import Idealize.ShloMosaic.Lib.StableHlo.Run

set_option maxRecDepth 16384

noncomputable section

namespace Cert.KernelIdeal.HostChains

open Cert.KernelIdeal Cert.KernelIdeal.Gen Idealize.ShloMosaic Idealize.ShloMosaic.TcCoe Idealize.ShloMosaic.StableHlo Idealize.SL.Sem
open Cert.ReferenceIdeal.ReadP

variable {F : FTy → Type} [FloatOps F] (W : Valuation τ sig (Elt F))

/-! ## The edge data: three stretches before the first call -/

/-- The source list with the self-loops appended. -/
theorem src_entry : StableHlo.after hostOps0_2 (StableHlo.after hostOps0_1 (StableHlo.after hostOps0 W)) (Proc.devRef .tc main_v3) = val_main_v3 (F := F) (W (Proc.devRef .tc main_arg1)) := by
  after_results; rfl

/-- The destination list with the self-loops appended. -/
theorem dst_entry : StableHlo.after hostOps0_2 (StableHlo.after hostOps0_1 (StableHlo.after hostOps0 W)) (Proc.devRef .tc main_v6) = val_main_v6 (F := F) (W (Proc.devRef .tc main_arg1)) := by
  after_results; rfl

set_option maxHeartbeats 4000000 in
/-- The per-edge normalisation. -/
theorem norm_entry : StableHlo.after hostOps0_2 (StableHlo.after hostOps0_1 (StableHlo.after hostOps0 W)) (Proc.devRef .tc main_v29) = val_main_v29 (F := F) (W (Proc.devRef .tc main_arg1)) := by
  after_results_simp <;> rfl

theorem entry_keeps_main_arg0 : StableHlo.after hostOps0_2 (StableHlo.after hostOps0_1 (StableHlo.after hostOps0 W)) (Proc.devRef .tc main_arg0) = W (Proc.devRef .tc main_arg0) := by
  after_results_simp <;> rfl

theorem entry_keeps_main_arg2 : StableHlo.after hostOps0_2 (StableHlo.after hostOps0_1 (StableHlo.after hostOps0 W)) (Proc.devRef .tc main_arg2) = W (Proc.devRef .tc main_arg2) := by
  after_results_simp <;> rfl

theorem entry_keeps_main_arg3 : StableHlo.after hostOps0_2 (StableHlo.after hostOps0_1 (StableHlo.after hostOps0 W)) (Proc.devRef .tc main_arg3) = W (Proc.devRef .tc main_arg3) := by
  after_results_simp <;> rfl

theorem entry_keeps_main_arg4 : StableHlo.after hostOps0_2 (StableHlo.after hostOps0_1 (StableHlo.after hostOps0 W)) (Proc.devRef .tc main_arg4) = W (Proc.devRef .tc main_arg4) := by
  after_results_simp <;> rfl

theorem entry_keeps_main_arg5 : StableHlo.after hostOps0_2 (StableHlo.after hostOps0_1 (StableHlo.after hostOps0 W)) (Proc.devRef .tc main_arg5) = W (Proc.devRef .tc main_arg5) := by
  after_results_simp <;> rfl

theorem entry_keeps_main_arg6 : StableHlo.after hostOps0_2 (StableHlo.after hostOps0_1 (StableHlo.after hostOps0 W)) (Proc.devRef .tc main_arg6) = W (Proc.devRef .tc main_arg6) := by
  after_results_simp <;> rfl

theorem entry_keeps_main_arg7 : StableHlo.after hostOps0_2 (StableHlo.after hostOps0_1 (StableHlo.after hostOps0 W)) (Proc.devRef .tc main_arg7) = W (Proc.devRef .tc main_arg7) := by
  after_results_simp <;> rfl

theorem entry_keeps_main_arg8 : StableHlo.after hostOps0_2 (StableHlo.after hostOps0_1 (StableHlo.after hostOps0 W)) (Proc.devRef .tc main_arg8) = W (Proc.devRef .tc main_arg8) := by
  after_results_simp <;> rfl

theorem entry_keeps_main_arg9 : StableHlo.after hostOps0_2 (StableHlo.after hostOps0_1 (StableHlo.after hostOps0 W)) (Proc.devRef .tc main_arg9) = W (Proc.devRef .tc main_arg9) := by
  after_results_simp <;> rfl

theorem entry_keeps_main_arg10 : StableHlo.after hostOps0_2 (StableHlo.after hostOps0_1 (StableHlo.after hostOps0 W)) (Proc.devRef .tc main_arg10) = W (Proc.devRef .tc main_arg10) := by
  after_results_simp <;> rfl

/-! ## Message passing at width 128, after the first call -/

set_option maxHeartbeats 4000000 in
theorem agg1_after : StableHlo.after hostOps1 W (Proc.devRef .tc main_v43)
    = Cert.Stages.aggregate128 (W (Proc.devRef .tc main_v30_0)) (W (Proc.devRef .tc main_v29)) (W (Proc.devRef .tc main_v3)) (W (Proc.devRef .tc main_v6)) := by
  after_results_simp <;> rfl

theorem pass1_keeps_main_v3 : StableHlo.after hostOps1 W (Proc.devRef .tc main_v3) = W (Proc.devRef .tc main_v3) := by
  after_results_simp <;> rfl

theorem pass1_keeps_main_v6 : StableHlo.after hostOps1 W (Proc.devRef .tc main_v6) = W (Proc.devRef .tc main_v6) := by
  after_results_simp <;> rfl

theorem pass1_keeps_main_v29 : StableHlo.after hostOps1 W (Proc.devRef .tc main_v29) = W (Proc.devRef .tc main_v29) := by
  after_results_simp <;> rfl

theorem pass1_keeps_main_v30_1 : StableHlo.after hostOps1 W (Proc.devRef .tc main_v30_1) = W (Proc.devRef .tc main_v30_1) := by
  after_results_simp <;> rfl

theorem pass1_keeps_main_arg2 : StableHlo.after hostOps1 W (Proc.devRef .tc main_arg2) = W (Proc.devRef .tc main_arg2) := by
  after_results_simp <;> rfl

theorem pass1_keeps_main_arg4 : StableHlo.after hostOps1 W (Proc.devRef .tc main_arg4) = W (Proc.devRef .tc main_arg4) := by
  after_results_simp <;> rfl

theorem pass1_keeps_main_arg5 : StableHlo.after hostOps1 W (Proc.devRef .tc main_arg5) = W (Proc.devRef .tc main_arg5) := by
  after_results_simp <;> rfl

theorem pass1_keeps_main_arg6 : StableHlo.after hostOps1 W (Proc.devRef .tc main_arg6) = W (Proc.devRef .tc main_arg6) := by
  after_results_simp <;> rfl

/-! ## Message passing at width 64, after the second call -/

set_option maxHeartbeats 4000000 in
theorem agg2_after : StableHlo.after hostOps2 W (Proc.devRef .tc main_v57)
    = Cert.Stages.aggregate64 (W (Proc.devRef .tc main_v44)) (W (Proc.devRef .tc main_v29)) (W (Proc.devRef .tc main_v3)) (W (Proc.devRef .tc main_v6)) := by
  after_results_simp <;> rfl

theorem pass2_keeps_main_v30_1 : StableHlo.after hostOps2 W (Proc.devRef .tc main_v30_1) = W (Proc.devRef .tc main_v30_1) := by
  after_results_simp <;> rfl

theorem pass2_keeps_main_arg2 : StableHlo.after hostOps2 W (Proc.devRef .tc main_arg2) = W (Proc.devRef .tc main_arg2) := by
  after_results_simp <;> rfl

theorem pass2_keeps_main_arg6 : StableHlo.after hostOps2 W (Proc.devRef .tc main_arg6) = W (Proc.devRef .tc main_arg6) := by
  after_results_simp <;> rfl

/-! ## The endpoint embeddings, gathered and padded, after the third call -/

set_option maxHeartbeats 4000000 in
theorem rowsA_after : StableHlo.after hostOps3_3 (StableHlo.after hostOps3_2 (StableHlo.after hostOps3_1 (StableHlo.after hostOps3 W))) (Proc.devRef .tc main_v77)
    = pad S503808x64 ![0, 0] ![3808, 0] ![0, 0]
        (Host.gather Cert.ReferenceIdeal.gather_S50000x64_S500000x1_S500000x64_1_0_n_n_0_1_164 (W (Proc.devRef .tc main_v58)) (val_main_v86 (F := F) (W (Proc.devRef .tc main_arg2))))
        (sitofp (F := F) .f32 (constantI S_ 32 0#32)) pads_S500000x64_S503808x64_038080_000 h_S_ := by
  after_results_simp <;> rfl

set_option maxHeartbeats 4000000 in
theorem rowsB_after : StableHlo.after hostOps3_3 (StableHlo.after hostOps3_2 (StableHlo.after hostOps3_1 (StableHlo.after hostOps3 W))) (Proc.devRef .tc main_v78)
    = pad S503808x64 ![0, 0] ![3808, 0] ![0, 0]
        (Host.gather Cert.ReferenceIdeal.gather_S50000x64_S500000x1_S500000x64_1_0_n_n_0_1_164 (W (Proc.devRef .tc main_v58)) (val_main_v95 (F := F) (W (Proc.devRef .tc main_arg2))))
        (sitofp (F := F) .f32 (constantI S_ 32 0#32)) pads_S500000x64_S503808x64_038080_000 h_S_ := by
  after_results_simp <;> rfl

/-! ## The final slice, after the fourth call -/

theorem result_after : StableHlo.after hostOps4 W (Proc.devRef .tc main_v80)
    = extractStridedSlice S500000 ![0] (W (Proc.devRef .tc main_v79)) slices_S503808_S500000_0 := by
  after_results

end Cert.KernelIdeal.HostChains

end
-- ==== Proof.Walk.lean ====
/-
  The result buffer after the run, as the reference's function of the launch arguments.

  The generated frame names the contents of core c's buffers at every boundary between a stretch of host operations
  and a pallas_call: W3 where the first call is entered, W4 where it is left, and so on to W14 after the last host
  operation. Going forward through these boundaries, each buffer that a later item reads is identified with the
  reference's own stage of the launch arguments: a host stretch by reading the stretch as a function of the buffers it is
  given, a call's output by the call's whole-array lemma at its entry contents, and a buffer an item does not write by
  the fact that it keeps its contents. At the end the result buffer holds the reference's result term.
-/
import proofs.«127649_j65180423684766_1_alg».proof.Proof.KernelRun
import proofs.«127649_j65180423684766_1_alg».proof.Proof.NodeTransform
import proofs.«127649_j65180423684766_1_alg».proof.Proof.LayerTwo
import proofs.«127649_j65180423684766_1_alg».proof.Proof.Embedding
import proofs.«127649_j65180423684766_1_alg».proof.Proof.EdgeScores
import proofs.«127649_j65180423684766_1_alg».proof.Proof.HostChains
import proofs.«127649_j65180423684766_1_alg».proof.Proof.Stages

set_option maxRecDepth 16384

noncomputable section

namespace Cert.KernelIdeal.Walk

open Cert.KernelIdeal Cert.KernelIdeal.Gen Idealize.ShloMosaic Idealize.ShloMosaic.TcCoe Idealize.ShloMosaic.StableHlo Idealize.SL.Sem
open Cert.ReferenceIdeal.ReadP Cert.KernelIdeal.HostChains

variable (m : (ℓ : Loc nD τ sig) → Buf (Elt Ideal) ℓ) (ρ : Dev nD → PrngReg) (c : Dev nD)

/-! ## Where the first call is entered: the arguments as launched, and the edge data -/

theorem W3_arg0 : W3 m ρ c (Proc.devRef .tc main_arg0) = m ((c : Thread nD τ).loc main_arg0) := entry_keeps_main_arg0 (W0 m ρ c)
theorem W3_arg2 : W3 m ρ c (Proc.devRef .tc main_arg2) = m ((c : Thread nD τ).loc main_arg2) := entry_keeps_main_arg2 (W0 m ρ c)
theorem W3_arg3 : W3 m ρ c (Proc.devRef .tc main_arg3) = m ((c : Thread nD τ).loc main_arg3) := entry_keeps_main_arg3 (W0 m ρ c)
theorem W3_arg4 : W3 m ρ c (Proc.devRef .tc main_arg4) = m ((c : Thread nD τ).loc main_arg4) := entry_keeps_main_arg4 (W0 m ρ c)
theorem W3_arg5 : W3 m ρ c (Proc.devRef .tc main_arg5) = m ((c : Thread nD τ).loc main_arg5) := entry_keeps_main_arg5 (W0 m ρ c)
theorem W3_arg6 : W3 m ρ c (Proc.devRef .tc main_arg6) = m ((c : Thread nD τ).loc main_arg6) := entry_keeps_main_arg6 (W0 m ρ c)
theorem W3_arg7 : W3 m ρ c (Proc.devRef .tc main_arg7) = m ((c : Thread nD τ).loc main_arg7) := entry_keeps_main_arg7 (W0 m ρ c)
theorem W3_arg8 : W3 m ρ c (Proc.devRef .tc main_arg8) = m ((c : Thread nD τ).loc main_arg8) := entry_keeps_main_arg8 (W0 m ρ c)
theorem W3_arg9 : W3 m ρ c (Proc.devRef .tc main_arg9) = m ((c : Thread nD τ).loc main_arg9) := entry_keeps_main_arg9 (W0 m ρ c)
theorem W3_arg10 : W3 m ρ c (Proc.devRef .tc main_arg10) = m ((c : Thread nD τ).loc main_arg10) := entry_keeps_main_arg10 (W0 m ρ c)

theorem W3_src : W3 m ρ c (Proc.devRef .tc main_v3) = val_main_v3 (F := Ideal) (m ((c : Thread nD τ).loc main_arg1)) := src_entry (W0 m ρ c)
theorem W3_dst : W3 m ρ c (Proc.devRef .tc main_v6) = val_main_v6 (F := Ideal) (m ((c : Thread nD τ).loc main_arg1)) := dst_entry (W0 m ρ c)
theorem W3_norm : W3 m ρ c (Proc.devRef .tc main_v29) = val_main_v29 (F := Ideal) (m ((c : Thread nD τ).loc main_arg1)) := norm_entry (W0 m ρ c)

/-! ## Where the first call is left: its two outputs, and what it does not touch -/

theorem W4_h1 : W4 m ρ c (Proc.devRef .tc main_v30_0) = val_main_v30 (F := Ideal) (m ((c : Thread nD τ).loc main_arg0)) (m ((c : Thread nD τ).loc main_arg3)) := by
  refine (W4_arr m ρ c 6).trans ((Cert.KernelIdeal.NodeTransform.h1_array (V3 m ρ) c).trans ?_)
  show val_main_v30 (F := Ideal) (W3 m ρ c (Proc.devRef .tc main_arg0)) (W3 m ρ c (Proc.devRef .tc main_arg3)) = _
  rw [W3_arg0, W3_arg3]

theorem W4_fc : W4 m ρ c (Proc.devRef .tc main_v30_1) = val_main_v73 (F := Ideal) (m ((c : Thread nD τ).loc main_arg0)) (m ((c : Thread nD τ).loc main_arg7)) (m ((c : Thread nD τ).loc main_arg8)) (m ((c : Thread nD τ).loc main_arg9)) (m ((c : Thread nD τ).loc main_arg10)) := by
  refine (W4_arr m ρ c 7).trans ((Cert.KernelIdeal.NodeTransform.fc_array (V3 m ρ) c).trans ?_)
  show val_main_v73 (F := Ideal) (W3 m ρ c (Proc.devRef .tc main_arg0)) (W3 m ρ c (Proc.devRef .tc main_arg7)) (W3 m ρ c (Proc.devRef .tc main_arg8)) (W3 m ρ c (Proc.devRef .tc main_arg9)) (W3 m ρ c (Proc.devRef .tc main_arg10)) = _
  rw [W3_arg0, W3_arg7, W3_arg8, W3_arg9, W3_arg10]

theorem W4_src : W4 m ρ c (Proc.devRef .tc main_v3) = val_main_v3 (F := Ideal) (m ((c : Thread nD τ).loc main_arg1)) := (W4_of_ne m ρ c main_v3 (by decide)).trans (W3_src m ρ c)
theorem W4_dst : W4 m ρ c (Proc.devRef .tc main_v6) = val_main_v6 (F := Ideal) (m ((c : Thread nD τ).loc main_arg1)) := (W4_of_ne m ρ c main_v6 (by decide)).trans (W3_dst m ρ c)
theorem W4_norm : W4 m ρ c (Proc.devRef .tc main_v29) = val_main_v29 (F := Ideal) (m ((c : Thread nD τ).loc main_arg1)) := (W4_of_ne m ρ c main_v29 (by decide)).trans (W3_norm m ρ c)
theorem W4_arg2 : W4 m ρ c (Proc.devRef .tc main_arg2) = m ((c : Thread nD τ).loc main_arg2) := (W4_of_ne m ρ c main_arg2 (by decide)).trans (W3_arg2 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)
theorem W4_arg6 : W4 m ρ c (Proc.devRef .tc main_arg6) = m ((c : Thread nD τ).loc main_arg6) := (W4_of_ne m ρ c main_arg6 (by decide)).trans (W3_arg6 m ρ c)

/-! ## Where the second call is entered: the summed first-layer messages -/

theorem W5_agg : W5 m ρ c (Proc.devRef .tc main_v43) = val_main_v43 (F := Ideal) (m ((c : Thread nD τ).loc main_arg0)) (m ((c : Thread nD τ).loc main_arg1)) (m ((c : Thread nD τ).loc main_arg3)) := by
  refine (agg1_after (W4 m ρ c)).trans ?_
  rw [W4_h1, W4_norm, W4_src, W4_dst]
  exact Cert.Stages.aggregate128_ref _ _ _

theorem W5_src : W5 m ρ c (Proc.devRef .tc main_v3) = val_main_v3 (F := Ideal) (m ((c : Thread nD τ).loc main_arg1)) := (pass1_keeps_main_v3 (W4 m ρ c)).trans (W4_src m ρ c)
theorem W5_dst : W5 m ρ c (Proc.devRef .tc main_v6) = val_main_v6 (F := Ideal) (m ((c : Thread nD τ).loc main_arg1)) := (pass1_keeps_main_v6 (W4 m ρ c)).trans (W4_dst m ρ c)
theorem W5_norm : W5 m ρ c (Proc.devRef .tc main_v29) = val_main_v29 (F := Ideal) (m ((c : Thread nD τ).loc main_arg1)) := (pass1_keeps_main_v29 (W4 m ρ c)).trans (W4_norm m ρ c)
theorem W5_fc : W5 m ρ c (Proc.devRef .tc main_v30_1) = val_main_v73 (F := Ideal) (m ((c : Thread nD τ).loc main_arg0)) (m ((c : Thread nD τ).loc main_arg7)) (m ((c : Thread nD τ).loc main_arg8)) (m ((c : Thread nD τ).loc main_arg9)) (m ((c : Thread nD τ).loc main_arg10)) := (pass1_keeps_main_v30_1 (W4 m ρ c)).trans (W4_fc m ρ c)
theorem W5_arg2 : W5 m ρ c (Proc.devRef .tc main_arg2) = m ((c : Thread nD τ).loc main_arg2) := (pass1_keeps_main_arg2 (W4 m ρ c)).trans (W4_arg2 m ρ c)
theorem W5_arg4 : W5 m ρ c (Proc.devRef .tc main_arg4) = m ((c : Thread nD τ).loc main_arg4) := (pass1_keeps_main_arg4 (W4 m ρ c)).trans (W4_arg4 m ρ c)
theorem W5_arg5 : W5 m ρ c (Proc.devRef .tc main_arg5) = m ((c : Thread nD τ).loc main_arg5) := (pass1_keeps_main_arg5 (W4 m ρ c)).trans (W4_arg5 m ρ c)
theorem W5_arg6 : W5 m ρ c (Proc.devRef .tc main_arg6) = m ((c : Thread nD τ).loc main_arg6) := (pass1_keeps_main_arg6 (W4 m ρ c)).trans (W4_arg6 m ρ c)

/-! ## Where the second call is left: the second layer's transform -/

theorem W6_h2 : W6 m ρ c (Proc.devRef .tc main_v44) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((Cert.KernelIdeal.LayerTwo.l2_array (V5 m ρ) c).trans ?_)
  show Cert.Stages.secondTransform (F := Ideal) (W5 m ρ c (Proc.devRef .tc main_v43)) (W5 m ρ c (Proc.devRef .tc main_arg4)) (W5 m ρ c (Proc.devRef .tc main_arg5)) = _
  rw [W5_agg, W5_arg4, W5_arg5]
  exact Cert.Stages.secondTransform_ref _ _ _ _ _

theorem W6_src : W6 m ρ c (Proc.devRef .tc main_v3) = val_main_v3 (F := Ideal) (m ((c : Thread nD τ).loc main_arg1)) := (W6_of_ne m ρ c main_v3 (by decide)).trans (W5_src m ρ c)
theorem W6_dst : W6 m ρ c (Proc.devRef .tc main_v6) = val_main_v6 (F := Ideal) (m ((c : Thread nD τ).loc main_arg1)) := (W6_of_ne m ρ c main_v6 (by decide)).trans (W5_dst m ρ c)
theorem W6_norm : W6 m ρ c (Proc.devRef .tc main_v29) = val_main_v29 (F := Ideal) (m ((c : Thread nD τ).loc main_arg1)) := (W6_of_ne m ρ c main_v29 (by decide)).trans (W5_norm m ρ c)
theorem W6_fc : W6 m ρ c (Proc.devRef .tc main_v30_1) = val_main_v73 (F := Ideal) (m ((c : Thread nD τ).loc main_arg0)) (m ((c : Thread nD τ).loc main_arg7)) (m ((c : Thread nD τ).loc main_arg8)) (m ((c : Thread nD τ).loc main_arg9)) (m ((c : Thread nD τ).loc main_arg10)) := (W6_of_ne m ρ c main_v30_1 (by decide)).trans (W5_fc m ρ c)
theorem W6_arg2 : W6 m ρ c (Proc.devRef .tc main_arg2) = m ((c : Thread nD τ).loc main_arg2) := (W6_of_ne m ρ c main_arg2 (by decide)).trans (W5_arg2 m ρ c)
theorem W6_arg6 : W6 m ρ c (Proc.devRef .tc main_arg6) = m ((c : Thread nD τ).loc main_arg6) := (W6_of_ne m ρ c main_arg6 (by decide)).trans (W5_arg6 m ρ c)

/-! ## Where the third call is entered: the summed second-layer messages -/

theorem W7_agg : W7 m ρ c (Proc.devRef .tc main_v57) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (agg2_after (W6 m ρ c)).trans ?_
  rw [W6_h2, W6_norm, W6_src, W6_dst]
  exact Cert.Stages.aggregate64_ref _ _ _ _ _

theorem W7_fc : W7 m ρ c (Proc.devRef .tc main_v30_1) = val_main_v73 (F := Ideal) (m ((c : Thread nD τ).loc main_arg0)) (m ((c : Thread nD τ).loc main_arg7)) (m ((c : Thread nD τ).loc main_arg8)) (m ((c : Thread nD τ).loc main_arg9)) (m ((c : Thread nD τ).loc main_arg10)) := (pass2_keeps_main_v30_1 (W6 m ρ c)).trans (W6_fc m ρ c)
theorem W7_arg2 : W7 m ρ c (Proc.devRef .tc main_arg2) = m ((c : Thread nD τ).loc main_arg2) := (pass2_keeps_main_arg2 (W6 m ρ c)).trans (W6_arg2 m ρ c)
theorem W7_arg6 : W7 m ρ c (Proc.devRef .tc main_arg6) = m ((c : Thread nD τ).loc main_arg6) := (pass2_keeps_main_arg6 (W6 m ρ c)).trans (W6_arg6 m ρ c)

/-! ## Where the third call is left: the node embeddings -/

theorem W8_z : W8 m ρ c (Proc.devRef .tc main_v58) = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 3).trans ((Cert.KernelIdeal.Embedding.mix_array (V7 m ρ) c).trans ?_)
  show Cert.Stages.mixture (F := Ideal) (W7 m ρ c (Proc.devRef .tc main_v57)) (W7 m ρ c (Proc.devRef .tc main_arg6)) (W7 m ρ c (Proc.devRef .tc main_v30_1)) = _
  rw [W7_agg, W7_arg6, W7_fc]
  exact Cert.Stages.mixture_ref _ _ _ _ _ _ _ _ _ _

theorem W8_arg2 : W8 m ρ c (Proc.devRef .tc main_arg2) = m ((c : Thread nD τ).loc main_arg2) := (W8_of_ne m ρ c main_arg2 (by decide)).trans (W7_arg2 m ρ c)

/-! ## Where the fourth call is entered: the two gathered and padded arrays of endpoint embeddings -/

theorem W12_rowsA : W12 m ρ c (Proc.devRef .tc main_v77)
    = pad S503808x64 ![0, 0] ![3808, 0] ![0, 0] (val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (sitofp (F := Ideal) .f32 (constantI S_ 32 0#32)) pads_S500000x64_S503808x64_038080_000 h_S_ := by
  refine (rowsA_after (W8 m ρ c)).trans ?_
  rw [W8_z, W8_arg2]
  rfl

theorem W12_rowsB : W12 m ρ c (Proc.devRef .tc main_v78)
    = pad S503808x64 ![0, 0] ![3808, 0] ![0, 0] (val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (sitofp (F := Ideal) .f32 (constantI S_ 32 0#32)) pads_S500000x64_S503808x64_038080_000 h_S_ := by
  refine (rowsB_after (W8 m ρ c)).trans ?_
  rw [W8_z, W8_arg2]
  rfl

/-! ## After the fourth call and the final slice: the scores -/

theorem W13_sums : W13 m ρ c (Proc.devRef .tc main_v79)
    = Cert.KernelIdeal.EdgeScores.rowDots
        (pad S503808x64 ![0, 0] ![3808, 0] ![0, 0] (val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
          (sitofp (F := Ideal) .f32 (constantI S_ 32 0#32)) pads_S500000x64_S503808x64_038080_000 h_S_)
        (pad S503808x64 ![0, 0] ![3808, 0] ![0, 0] (val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
          (sitofp (F := Ideal) .f32 (constantI S_ 32 0#32)) pads_S500000x64_S503808x64_038080_000 h_S_) := by
  refine (W13_arr m ρ c 2).trans ((Cert.KernelIdeal.EdgeScores.scores_array (V12 m ρ) c).trans ?_)
  show Cert.KernelIdeal.EdgeScores.rowDots (W12 m ρ c (Proc.devRef .tc main_v77)) (W12 m ρ c (Proc.devRef .tc main_v78)) = _
  rw [W12_rowsA, W12_rowsB]

/-- THE RESULT: after the last host operation the result buffer holds the reference's result term of the launch
    arguments. -/
theorem result_value : W14 m ρ c (Proc.devRef .tc main_v80) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (result_after (W13 m ρ c)).trans ?_
  rw [W13_sums]
  exact (Cert.KernelIdeal.EdgeScores.kept_scores _ _ _ _).trans (Cert.Stages.scores_ref _ _ _ _ _ _ _ _ _ _ _)

end Cert.KernelIdeal.Walk

end
-- ==== Proof.lean ====
/-
  A two-layer graph convolution with a fully connected side branch and a dot-product edge decoder, as four
  row-tiled pallas_calls among host gathers and scatter-adds, against the same network written in plain jnp.

  Both programs compute, from the node features x, the message edges and the query edges: the per-edge normalisation
  norm = d⁻¹ᐟ²[src] · d⁻¹ᐟ²[dst] from the degrees d (with self-loops); the first layer
  relu(Σ_{edges into v} norm · (x W₁)[src] + b₁); the second layer Σ_{edges into v} norm · (· W₂)[src] + b₂; the side
  branch relu(x Wf₁ + bf₁) Wf₂ + bf₂; their even mixture z; and for each query edge (u, v) the score Σ_k z[u, k] z[v, k].
  The kernel program leaves every gather and scatter-add on the host, exactly as the reference has them, and runs the
  dense parts in four calls: the two products with x (and the whole side branch), the second layer's
  relu-and-product, the mixture, and the row-wise sums of products over the query edges padded to whole blocks.

  At the ideal values each call's output array is the reference's own whole-array expression of the arrays the call is
  given (a change of float format is the identity, a product accumulated from zero is the plain sum of products, a lane sum
  from zero is the host's sum, and the blocks tile the arrays), the host stretches between the calls are the reference's
  own operations applied to those arrays, and the padding rows the last call also sums are cut off again. So the result
  buffer ends at the reference's result term of the launch arguments; no law of the extended reals beyond renaming
  the index of a sum is used, and the finiteness of the inputs is never needed.
  The three frames: the two kernel programs by the launch over their segments; the reference by its run.
-/
import proofs.«127649_j65180423684766_1_alg».proof.Defs
import proofs.«127649_j65180423684766_1_alg».proof.Proof.Gen.Kernel
import proofs.«127649_j65180423684766_1_alg».proof.Proof.Gen.Kernel.Frame
import proofs.«127649_j65180423684766_1_alg».proof.Proof.Gen.KernelIdeal
import proofs.«127649_j65180423684766_1_alg».proof.Proof.Gen.KernelIdeal.Frame
import proofs.«127649_j65180423684766_1_alg».proof.Proof.Gen.ReferenceIdeal
import proofs.«127649_j65180423684766_1_alg».proof.Proof.Gen.Pre_finite_inputs
import proofs.«127649_j65180423684766_1_alg».proof.Proof.RefRunP
import proofs.«127649_j65180423684766_1_alg».proof.Proof.RefReadP
import proofs.«127649_j65180423684766_1_alg».proof.Proof.KernelRun
import proofs.«127649_j65180423684766_1_alg».proof.Proof.Walk
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the scores of the query edges as the reference's
    result term of the kernel's launch arguments. -/
theorem algebraic : Cert.algebraic_KernelIdeal_ReferenceIdeal := by
  intro m ρ m' ρ' _ hagree
  refine ⟨fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Walk.result_value m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.ReadP.val_main_v98_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
